-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x384 : Shape := ⟨2, ![100000, 384]⟩
abbrev S2x400000 : Shape := ⟨2, ![2, 400000]⟩
abbrev S384x384 : Shape := ⟨2, ![384, 384]⟩
abbrev S384 : Shape := ⟨1, ![384]⟩
abbrev S768x384 : Shape := ⟨2, ![768, 384]⟩
abbrev S384x1 : Shape := ⟨2, ![384, 1]⟩
abbrev S1 : Shape := ⟨1, ![1]⟩
abbrev S_ : Shape := ⟨0, ![]⟩

class Facts : Prop where
  bcast_S_S100000x384 : S_.BroadcastsInDim S100000x384 (![] : Fin 0 → Fin S100000x384.rank)
  reducesTo_S100000x384_S_d0_1 : S100000x384.ReducesTo [0, 1] S_
  h_S_ : 0 < S_.numel
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S768x384 : S_.BroadcastsInDim S768x384 (![] : Fin 0 → Fin S768x384.rank)
  reducesTo_S768x384_S_d0_1 : S768x384.ReducesTo [0, 1] S_
  bcast_S_S384x1 : S_.BroadcastsInDim S384x1 (![] : Fin 0 → Fin S384x1.rank)
  reducesTo_S384x1_S_d0_1 : S384x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S384 .f32) (main_arg6 : FVec F S384x1 .f32) (main_arg7 : FVec F S1 .f32) (main_v13 : IVec S_ 1) (main_v16 : IVec S768x384 1) : IVec S_ 1 :=
  let main_c_5 : IVec S_ 1 := constantI S_ 1 1#1
  let main_v17 : IVec S_ 1 := (fun x v => Host.reduce IntOp.andi x v reducesTo_S768x384_S_d0_1 h_S_) main_v16 main_c_5
  let main_v18 : IVec S_ 1 := andi main_v13 main_v17
  let main_v19 : FVec F S384 .f32 := Host.absf main_arg5
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384x1 .f32 := Host.absf main_arg6
  let main_cst_8 : FVec F S_ .f32 := constant S_ .f32 0x7F800000#32
  let main_v25 : FVec F S384x1 .f32 := broadcastInDim S384x1 ![] bcast_S_S384x1 main_cst_8
  let main_v26 : IVec S384x1 1 := cmpf .olt main_v24 main_v25
  let main_c_9 : IVec S_ 1 := constantI S_ 1 1#1
  let main_v27 : IVec S_ 1 := (fun x v => Host.reduce IntOp.andi x v reducesTo_S384x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x384 .f32) (main_arg1 : IVec S2x400000 32) (main_arg2 : FVec F S384x384 .f32) (main_arg3 : FVec F S384 .f32) (main_arg4 : FVec F S768x384 .f32) (main_arg5 : FVec F S384 .f32) (main_arg6 : FVec F S384x1 .f32) (main_arg7 : FVec F S1 .f32) : IVec S_ 1 :=
  let main_v0 : FVec F S100000x384 .f32 := Host.absf main_arg0
  let main_cst : FVec F S_ .f32 := constant S_ .f32 0x7F800000#32
  let main_v1 : FVec F S100000x384 .f32 := broadcastInDim S100000x384 ![] bcast_S_S100000x384 main_cst
  let main_v2 : IVec S100000x384 1 := cmpf .olt main_v0 main_v1
  let main_c : IVec S_ 1 := constantI S_ 1 1#1
  let main_v3 : IVec S_ 1 := (fun x v => Host.reduce IntOp.andi x v reducesTo_S100000x384_S_d0_1 h_S_) main_v2 main_c
  let main_v4 : FVec F S384x384 .f32 := Host.absf main_arg2
  let main_cst_0 : FVec F S_ .f32 := constant S_ .f32 0x7F800000#32
  let main_v5 : FVec F S384x384 .f32 := broadcastInDim S384x384 ![] bcast_S_S384x384 main_cst_0
  let main_v6 : IVec S384x384 1 := cmpf .olt main_v4 main_v5
  let main_c_1 : IVec S_ 1 := constantI S_ 1 1#1
  let main_v7 : IVec S_ 1 := (fun x v => Host.reduce IntOp.andi x v reducesTo_S384x384_S_d0_1 h_S_) main_v6 main_c_1
  let main_v8 : IVec S_ 1 := andi main_v3 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S768x384 .f32 := Host.absf main_arg4
  let main_cst_4 : FVec F S_ .f32 := constant S_ .f32 0x7F800000#32
  let main_v15 : FVec F S768x384 .f32 := broadcastInDim S768x384 ![] bcast_S_S768x384 main_cst_4
  let main_v16 : IVec S768x384 1 := cmpf .olt main_v14 main_v15
  fn_part1 (F := F) main_arg5 main_arg6 main_arg7 main_v13 main_v16
-- ==== Kernel.lean ====
abbrev S100000x384 : Shape := ⟨2, ![100000, 384]⟩
abbrev S2x400000 : Shape := ⟨2, ![2, 400000]⟩
abbrev S384x384 : Shape := ⟨2, ![384, 384]⟩
abbrev S384 : Shape := ⟨1, ![384]⟩
abbrev S768x384 : Shape := ⟨2, ![768, 384]⟩
abbrev S384x1 : Shape := ⟨2, ![384, 1]⟩
abbrev S1 : Shape := ⟨1, ![1]⟩
abbrev S1x400000 : Shape := ⟨2, ![1, 400000]⟩
abbrev S400000 : Shape := ⟨1, ![400000]⟩
abbrev S100000 : Shape := ⟨1, ![100000]⟩
abbrev S500000 : Shape := ⟨1, ![500000]⟩
abbrev S_ : Shape := ⟨0, ![]⟩
abbrev S500000x1 : Shape := ⟨2, ![500000, 1]⟩
abbrev S1000x384 : Shape := ⟨2, ![1000, 384]⟩
abbrev S500000x384 : Shape := ⟨2, ![500000, 384]⟩
abbrev S100000x768 : Shape := ⟨2, ![100000, 768]⟩
abbrev S1000x768 : Shape := ⟨2, ![1000, 768]⟩
abbrev S1x384 : Shape := ⟨2, ![1, 384]⟩
abbrev S100000x1 : Shape := ⟨2, ![100000, 1]⟩
abbrev S1000x1 : Shape := ⟨2, ![1000, 1]⟩
abbrev S1000 : Shape := ⟨1, ![1000]⟩
abbrev S1x1 : Shape := ⟨2, ![1, 1]⟩

abbrev nBuf : Space → Nat
  | .hbm => 86
  | .vmem => 26
  | .smem => 0
  | _ => 0

abbrev bufTy : (tb : Table) → Fin (tcTables nBuf tb) → BufTy
  | .hbm, ⟨0, _⟩ => ⟨S100000x384, .f32⟩
  | .hbm, ⟨1, _⟩ => ⟨S2x400000, .i32⟩
  | .hbm, ⟨2, _⟩ => ⟨S384x384, .f32⟩
  | .hbm, ⟨3, _⟩ => ⟨S384, .f32⟩
  | .hbm, ⟨4, _⟩ => ⟨S768x384, .f32⟩
  | .hbm, ⟨5, _⟩ => ⟨S384, .f32⟩
  | .hbm, ⟨6, _⟩ => ⟨S384x1, .f32⟩
  | .hbm, ⟨7, _⟩ => ⟨S1, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S100000, .i32⟩
  | .hbm, ⟨13, _⟩ => ⟨S500000, .i32⟩
  | .hbm, ⟨14, _⟩ => ⟨S500000, .i32⟩
  | .hbm, ⟨15, _⟩ => ⟨S_, .f32⟩
  | .hbm, ⟨16, _⟩ => ⟨S500000, .f32⟩
  | .hbm, ⟨17, _⟩ => ⟨S_, .f32⟩
  | .hbm, ⟨18, _⟩ => ⟨S100000, .f32⟩
  | .hbm, ⟨19, _⟩ => ⟨S500000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000, .f32⟩
  | .hbm, ⟨47, _⟩ => ⟨S500000, .f32⟩
  | .hbm, ⟨48, _⟩ => ⟨S100000x384, .f32⟩
  | .hbm, ⟨49, _⟩ => ⟨S500000x1, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x384, .f32⟩
  | .hbm, ⟨59, _⟩ => ⟨S500000x384, .f32⟩
  | .hbm, ⟨60, _⟩ => ⟨S500000x384, .f32⟩
  | .hbm, ⟨61, _⟩ => ⟨S_, .f32⟩
  | .hbm, ⟨62, _⟩ => ⟨S100000x384, .f32⟩
  | .hbm, ⟨63, _⟩ => ⟨S500000x1, .i32⟩
  | .hbm, ⟨64, _⟩ => ⟨S100000x384, .f32⟩
  | .hbm, ⟨65, _⟩ => ⟨S100000x768, .f32⟩
  | .hbm, ⟨66, _⟩ => ⟨S100000x384, .f32⟩
  | .hbm, ⟨67, _⟩ => ⟨S500000x1, .f32⟩
  | .hbm, ⟨68, _⟩ => ⟨S_, .i32⟩
  | .hbm, ⟨69, _⟩ => ⟨S500000, .i32⟩
  | .hbm, ⟨70, _⟩ => ⟨S500000, .i1⟩
  | .hbm, ⟨71, _⟩ => ⟨S_, .i32⟩
  | .hbm, ⟨72, _⟩ => ⟨S500000, .i32⟩
  | .hbm, ⟨73, _⟩ => ⟨S500000, .i32⟩
  | .hbm, ⟨74, _⟩ => ⟨S500000, .i32⟩
  | .hbm, ⟨75, _⟩ => ⟨S500000x1, .i32⟩
  | .hbm, ⟨76, _⟩ => ⟨S500000x384, .f32⟩
  | .hbm, ⟨77, _⟩ => ⟨S500000x384, .f32⟩
  | .hbm, ⟨78, _⟩ => ⟨S500000x384, .f32⟩
  | .hbm, ⟨79, _⟩ => ⟨S_, .f32⟩
  | .hbm, ⟨80, _⟩ => ⟨S100000x384, .f32⟩
  | .hbm, ⟨81, _⟩ => ⟨S500000x1, .i32⟩
  | .hbm, ⟨82, _⟩ => ⟨S100000x384, .f32⟩
  | .hbm, ⟨83, _⟩ => ⟨S1x384, .f32⟩
  | .hbm, ⟨84, _⟩ => ⟨S100000x384, .f32⟩
  | .hbm, ⟨85, _⟩ => ⟨S100000x1, .f32⟩
  | .local _ .vmem, ⟨0, _⟩ => ⟨S1000x384, .f32⟩
  | .local _ .vmem, ⟨1, _⟩ => ⟨S1000x384, .f32⟩
  | .local _ .vmem, ⟨2, _⟩ => ⟨S384x384, .f32⟩
  | .local _ .vmem, ⟨3, _⟩ => ⟨S1000x384, .f32⟩
  | .local _ .vmem, ⟨4, _⟩ => ⟨S1000x384, .f32⟩
  | .local _ .vmem, ⟨5, _⟩ => ⟨S1000x384, .f32⟩
  | .local _ .vmem, ⟨6, _⟩ => ⟨S1000x384, .f32⟩
  | .local _ .vmem, ⟨7, _⟩ => ⟨S1000x384, .f32⟩
  | .local _ .vmem, ⟨8, _⟩ => ⟨S1000x384, .f32⟩
  | .local _ .vmem, ⟨9, _⟩ => ⟨S384, .f32⟩
  | .local _ .vmem, ⟨10, _⟩ => ⟨S1000x768, .f32⟩
  | .local _ .vmem, ⟨11, _⟩ => ⟨S1000x768, .f32⟩
  | .local _ .vmem, ⟨12, _⟩ => ⟨S1000x768, .f32⟩
  | .local _ .vmem, ⟨13, _⟩ => ⟨S1000x768, .f32⟩
  | .local _ .vmem, ⟨14, _⟩ => ⟨S768x384, .f32⟩
  | .local _ .vmem, ⟨15, _⟩ => ⟨S1000x384, .f32⟩
  | .local _ .vmem, ⟨16, _⟩ => ⟨S1000x384, .f32⟩
  | .local _ .vmem, ⟨17, _⟩ => ⟨S1000x384, .f32⟩
  | .local _ .vmem, ⟨18, _⟩ => ⟨S1000x384, .f32⟩
  | .local _ .vmem, ⟨19, _⟩ => ⟨S384, .f32⟩
  | .local _ .vmem, ⟨20, _⟩ => ⟨S1x384, .f32⟩
  | .local _ .vmem, ⟨21, _⟩ => ⟨S1, .f32⟩
  | .local _ .vmem, ⟨22, _⟩ => ⟨S1000x384, .f32⟩
  | .local _ .vmem, ⟨23, _⟩ => ⟨S1000x384, .f32⟩
  | .local _ .vmem, ⟨24, _⟩ => ⟨S1000x1, .f32⟩
  | .local _ .vmem, ⟨25, _⟩ => ⟨S1000x1, .f32⟩
  | _, _ => ⟨S100000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60_0 : Ref sig .tc := ⟨.hbm, 84, rfl⟩
abbrev main_v60_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S384 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x384 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S100000_S500000_d0 : Shape.Concatenates [S400000, S100000] S500000 0
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  inb_S1000x384_S1000x384_0_0 : ∀ a, (![0, 0] : Fin 2 → Nat) a + S1000x384.size a ≤ S1000x384.size a
  h_S1000x384 : 0 < S1000x384.numel
  bitsLt_bf16_f32 : FTy.bits .bf16 < FTy.bits .f32
  inb_S384x384_S384x384_0_0 : ∀ a, (![0, 0] : Fin 2 → Nat) a + S384x384.size a ≤ S384x384.size a
  h_S384x384 : 0 < S384x384.numel
  bcast_S500000x1_S500000x384_0_1 : S500000x1.BroadcastsInDim S500000x384 (![0, 1] : Fin 2 → Fin S500000x384.rank)
  bcast_S_S100000x384 : S_.BroadcastsInDim S100000x384 (![] : Fin 0 → Fin S100000x384.rank)
  shapeCasts_S1000x384_S1000x384 : S1000x384.ShapeCasts S1000x384
  inb_S384_S384_0 : ∀ a, (![0] : Fin 1 → Nat) a + S384.size a ≤ S384.size a
  h_S384 : 0 < S384.numel
  shapeCasts_S384_S1x384 : S384.ShapeCasts S1x384
  broadcasts_S1x384_S1000x384 : S1x384.Broadcasts S1000x384
  inb_S1000x768_S1000x384_0_0 : ∀ a, (![0, 0] : Fin 2 → Nat) a + S1000x384.size a ≤ S1000x768.size a
  inb_S1000x768_S1000x384_0_384 : ∀ a, (![0, 384] : Fin 2 → Nat) a + S1000x384.size a ≤ S1000x768.size a
  inb_S1000x768_S1000x768_0_0 : ∀ a, (![0, 0] : Fin 2 → Nat) a + S1000x768.size a ≤ S1000x768.size a
  h_S1000x768 : 0 < S1000x768.numel
  shapeCasts_S1000x768_S1000x768 : S1000x768.ShapeCasts S1000x768
  inb_S768x384_S768x384_0_0 : ∀ a, (![0, 0] : Fin 2 → Nat) a + S768x384.size a ≤ S768x384.size a
  h_S768x384 : 0 < S768x384.numel
  transposes_S384x1_S1x384_1_0 : S384x1.Transposes [1, 0] S1x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  reduces_S1000x384_S1000 : S1000x384.Reduces [1] S1000
  shapeCasts_S1000_S1000x1 : S1000.ShapeCasts S1000x1
  inb_S1_S1_0 : ∀ a, (![0] : Fin 1 → Nat) a + S1.size a ≤ S1.size a
  h_S1 : 0 < S1.numel
  shapeCasts_S1_S1x1 : S1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  dot_S1000x384_S384x384_S1000x384_1_0_0_1_n_n_wf : DotDims.WF S1000x384 S384x384 S1000x384 [1] [0] [0] [1] [] []
  gather_S100000x384_S500000x1_S500000x384_1_0_n_n_0_1_1384_wf : GatherDims.WF S100000x384 S500000x1 S500000x384 [1] [0] [] [0] [] 1 ![1, 384]
  scatter_S100000x384_S500000x1_S500000x384_1_0_0_1_wf : ScatterDims.WF S100000x384 S500000x1 S500000x384 [1] [0] [0] 1
  dot_S1000x768_S768x384_S1000x384_1_0_0_1_n_n_wf : DotDims.WF S1000x768 S768x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x384.size a ≤ S100000x384.size a
  hwx0_0 : ∀ i : grid0.Coords, EltTy.bits .f32 = 32 ∨ (Rect.block (s := S100000x384) S1000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x384.size a ≤ S100000x384.size a
  hwx0_2 : ∀ i : grid0.Coords, EltTy.bits .f32 = 32 ∨ (Rect.block (s := S100000x384) S1000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x384.size a ≤ S100000x384.size a
  hwx1_0 : ∀ i : grid1.Coords, EltTy.bits .f32 = 32 ∨ (Rect.block (s := S100000x384) S1000x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x384.size a ≤ S100000x384.size a
  hwx1_1 : ∀ i : grid1.Coords, EltTy.bits .f32 = 32 ∨ (Rect.block (s := S100000x384) S1000x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384.size a ≤ S384.size a
  hwx1_2 : ∀ i : grid1.Coords, EltTy.bits .f32 = 32 ∨ (Rect.block (s := S384) S384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x768.size a ≤ S100000x768.size a
  hwx1_3 : ∀ i : grid1.Coords, EltTy.bits .f32 = 32 ∨ (Rect.block (s := S100000x768) S1000x768.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x768.size a ≤ S100000x768.size a
  hwx2_0 : ∀ i : grid2.Coords, EltTy.bits .f32 = 32 ∨ (Rect.block (s := S100000x768) S1000x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x384.size a ≤ S768x384.size a
  hwx2_1 : ∀ i : grid2.Coords, EltTy.bits .f32 = 32 ∨ (Rect.block (s := S768x384) S768x384.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x384.size a ≤ S100000x384.size a
  hwx2_2 : ∀ i : grid2.Coords, EltTy.bits .f32 = 32 ∨ (Rect.block (s := S100000x384) S1000x384.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x384.size a ≤ S100000x384.size a
  hwx3_0 : ∀ i : grid3.Coords, EltTy.bits .f32 = 32 ∨ (Rect.block (s := S100000x384) S1000x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384.size a ≤ S384.size a
  hwx3_1 : ∀ i : grid3.Coords, EltTy.bits .f32 = 32 ∨ (Rect.block (s := S384) S384.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x384.size a ≤ S1x384.size a
  hwx3_2 : ∀ i : grid3.Coords, EltTy.bits .f32 = 32 ∨ (Rect.block (s := S1x384) S1x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1.size a ≤ S1.size a
  hwx3_3 : ∀ i : grid3.Coords, EltTy.bits .f32 = 32 ∨ (Rect.block (s := S1) S1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x384.size a ≤ S100000x384.size a
  hwx3_4 : ∀ i : grid3.Coords, EltTy.bits .f32 = 32 ∨ (Rect.block (s := S100000x384) S1000x384.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x1.size a ≤ S100000x1.size a
  hwx3_5 : ∀ i : grid3.Coords, EltTy.bits .f32 = 32 ∨ (Rect.block (s := S100000x1) S1000x1.size (cc3_transform_5 i) (hinb3_5 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def dot_S1000x384_S384x384_S1000x384_1_0_0_1_n_n : DotDims S1000x384 S384x384 S1000x384 where
  lhsContracting := [1]
  rhsContracting := [0]
  lhsNonContracting := [0]
  rhsNonContracting := [1]
  lhsBatch := []
  rhsBatch := []
  wf := dot_S1000x384_S384x384_S1000x384_1_0_0_1_n_n_wf
def gather_S100000x384_S500000x1_S500000x384_1_0_n_n_0_1_1384 : GatherDims S100000x384 S500000x1 S500000x384 where
  offsetDims := [1]
  collapsedSliceDims := [0]
  operandBatchingDims := []
  startIndicesBatchingDims := []
  startIndexMap := [0]
  indexVectorDim := 1
  sliceSizes := ![1, 384]
  wf := gather_S100000x384_S500000x1_S500000x384_1_0_n_n_0_1_1384_wf
def scatter_S100000x384_S500000x1_S500000x384_1_0_0_1 : ScatterDims S100000x384 S500000x1 S500000x384 where
  updateWindowDims := [1]
  insertedWindowDims := [0]
  scatterDimsToOperandDims := [0]
  indexVectorDim := 1
  wf := scatter_S100000x384_S500000x1_S500000x384_1_0_0_1_wf
def dot_S1000x768_S768x384_S1000x384_1_0_0_1_n_n : DotDims S1000x768 S768x384 S1000x384 where
  lhsContracting := [1]
  rhsContracting := [0]
  lhsNonContracting := [0]
  rhsNonContracting := [1]
  lhsBatch := []
  rhsBatch := []
  wf := dot_S1000x768_S768x384_S1000x384_1_0_0_1_n_n_wf

abbrev win0_0 : Pipeline.Window sig grid0 :=
  Pipeline.Window.ofSpec (Memref.whole main_arg0) S1000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1000x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1000x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S1000x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S768x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1000x384.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S1000x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S384.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60_0) S1000x384.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v60_1) S1000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x384 : Shape := ⟨2, ![100000, 384]⟩
abbrev S2x400000 : Shape := ⟨2, ![2, 400000]⟩
abbrev S384x384 : Shape := ⟨2, ![384, 384]⟩
abbrev S384 : Shape := ⟨1, ![384]⟩
abbrev S768x384 : Shape := ⟨2, ![768, 384]⟩
abbrev S384x1 : Shape := ⟨2, ![384, 1]⟩
abbrev S1 : Shape := ⟨1, ![1]⟩
abbrev S1x400000 : Shape := ⟨2, ![1, 400000]⟩
abbrev S400000 : Shape := ⟨1, ![400000]⟩
abbrev S100000 : Shape := ⟨1, ![100000]⟩
abbrev S500000 : Shape := ⟨1, ![500000]⟩
abbrev S_ : Shape := ⟨0, ![]⟩
abbrev S500000x1 : Shape := ⟨2, ![500000, 1]⟩
abbrev S500000x384 : Shape := ⟨2, ![500000, 384]⟩
abbrev S1x384 : Shape := ⟨2, ![1, 384]⟩
abbrev S100000x768 : Shape := ⟨2, ![100000, 768]⟩
abbrev S100000x1 : Shape := ⟨2, ![100000, 1]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S100000x384, .f32⟩
  | 1 => ⟨S2x400000, .i32⟩
  | 2 => ⟨S384x384, .f32⟩
  | 3 => ⟨S384, .f32⟩
  | 4 => ⟨S768x384, .f32⟩
  | 5 => ⟨S384, .f32⟩
  | 6 => ⟨S384x1, .f32⟩
  | 7 => ⟨S1, .f32⟩
  | 8 => ⟨S1x400000, .i32⟩
  | 9 => ⟨S400000, .i32⟩
  | 10 => ⟨S1x400000, .i32⟩
  | 11 => ⟨S400000, .i32⟩
  | 12 => ⟨S100000, .i32⟩
  | 13 => ⟨S500000, .i32⟩
  | 14 => ⟨S500000, .i32⟩
  | 15 => ⟨S_, .f32⟩
  | 16 => ⟨S500000, .f32⟩
  | 17 => ⟨S_, .f32⟩
  | 18 => ⟨S100000, .f32⟩
  | 19 => ⟨S500000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000, .f32⟩
  | 47 => ⟨S500000, .f32⟩
  | 48 => ⟨S100000x384, .f32⟩
  | 49 => ⟨S500000x1, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x384, .f32⟩
  | 59 => ⟨S500000x384, .f32⟩
  | 60 => ⟨S500000x384, .f32⟩
  | 61 => ⟨S_, .f32⟩
  | 62 => ⟨S100000x384, .f32⟩
  | 63 => ⟨S500000x1, .i32⟩
  | 64 => ⟨S100000x384, .f32⟩
  | 65 => ⟨S1x384, .f32⟩
  | 66 => ⟨S100000x384, .f32⟩
  | 67 => ⟨S100000x384, .f32⟩
  | 68 => ⟨S100000x768, .f32⟩
  | 69 => ⟨S_, .f32⟩
  | 70 => ⟨S100000x768, .f32⟩
  | 71 => ⟨S100000x768, .i1⟩
  | 72 => ⟨S_, .f32⟩
  | 73 => ⟨S100000x768, .f32⟩
  | 74 => ⟨S100000x768, .f32⟩
  | 75 => ⟨S100000x768, .f32⟩
  | 76 => ⟨S100000, .i32⟩
  | 77 => ⟨S500000, .i32⟩
  | 78 => ⟨S500000, .i32⟩
  | 79 => ⟨S_, .f32⟩
  | 80 => ⟨S500000, .f32⟩
  | 81 => ⟨S_, .f32⟩
  | 82 => ⟨S100000, .f32⟩
  | 83 => ⟨S500000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000, .f32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000, .f32⟩
  | 111 => ⟨S500000, .f32⟩
  | 112 => ⟨S100000x384, .f32⟩
  | 113 => ⟨S500000x1, .f32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x384, .f32⟩
  | 123 => ⟨S500000x384, .f32⟩
  | 124 => ⟨S500000x384, .f32⟩
  | 125 => ⟨S_, .f32⟩
  | 126 => ⟨S100000x384, .f32⟩
  | 127 => ⟨S500000x1, .i32⟩
  | _ => ⟨S100000x384, .f32⟩

abbrev hbmTy0_1 (i : Nat) : BufTy := match i % 128 with
  | 0 => ⟨S100000x384, .f32⟩
  | 1 => ⟨S1x384, .f32⟩
  | 2 => ⟨S100000x384, .f32⟩
  | 3 => ⟨S100000x384, .f32⟩
  | 4 => ⟨S_, .f32⟩
  | 5 => ⟨S100000x384, .f32⟩
  | 6 => ⟨S100000x384, .i1⟩
  | 7 => ⟨S_, .f32⟩
  | 8 => ⟨S100000x384, .f32⟩
  | 9 => ⟨S100000x384, .f32⟩
  | 10 => ⟨S100000x384, .f32⟩
  | 11 => ⟨S100000x1, .f32⟩
  | 12 => ⟨S1x1, .f32⟩
  | 13 => ⟨S100000x1, .f32⟩
  | 14 => ⟨S100000x1, .f32⟩
  | _ => ⟨S100000x384, .f32⟩

abbrev hbmTy (i : Nat) : BufTy := match i / 128 with
  | 0 => hbmTy0_0 i
  | 1 => hbmTy0_1 i
  | _ => ⟨S100000x384, .f32⟩

abbrev bufTy : (tb : Table) → Fin (tcTables nBuf tb) → BufTy
  | .hbm, ⟨i, _⟩ => hbmTy i
  | _, _ => ⟨S100000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_19 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_21 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_22 : Ref sig .tc := ⟨.hbm, 132, rfl⟩
abbrev main_v96 : Ref sig .tc := ⟨.hbm, 133, rfl⟩
abbrev main_v97 : Ref sig .tc := ⟨.hbm, 134, rfl⟩
abbrev main_cst_23 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S100000_S500000_d0 : Shape.Concatenates [S400000, S100000] S500000 0
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S500000x1_S500000x384_0_1 : S500000x1.BroadcastsInDim S500000x384 (![0, 1] : Fin 2 → Fin S500000x384.rank)
  bcast_S_S100000x384 : S_.BroadcastsInDim S100000x384 (![] : Fin 0 → Fin S100000x384.rank)
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  concatenates_S100000x384_S100000x384_S100000x768_d1 : Shape.Concatenates [S100000x384, S100000x384] S100000x768 1
  bcast_S_S100000x768 : S_.BroadcastsInDim S100000x768 (![] : Fin 0 → Fin S100000x768.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  dot_S100000x384_S384x384_S100000x384_1_0_0_1_n_n_wf : DotDims.WF S100000x384 S384x384 S100000x384 [1] [0] [0] [1] [] []
  gather_S100000x384_S500000x1_S500000x384_1_0_n_n_0_1_1384_wf : GatherDims.WF S100000x384 S500000x1 S500000x384 [1] [0] [] [0] [] 1 ![1, 384]
  scatter_S100000x384_S500000x1_S500000x384_1_0_0_1_wf : ScatterDims.WF S100000x384 S500000x1 S500000x384 [1] [0] [0] 1
  dot_S100000x768_S768x384_S100000x384_1_0_0_1_n_n_wf : DotDims.WF S100000x768 S768x384 S100000x384 [1] [0] [0] [1] [] []
  dot_S100000x384_S384x1_S100000x1_1_0_0_1_n_n_wf : DotDims.WF S100000x384 S384x1 S100000x1 [1] [0] [0] [1] [] []

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def dot_S100000x384_S384x384_S100000x384_1_0_0_1_n_n : DotDims S100000x384 S384x384 S100000x384 where
  lhsContracting := [1]
  rhsContracting := [0]
  lhsNonContracting := [0]
  rhsNonContracting := [1]
  lhsBatch := []
  rhsBatch := []
  wf := dot_S100000x384_S384x384_S100000x384_1_0_0_1_n_n_wf
def gather_S100000x384_S500000x1_S500000x384_1_0_n_n_0_1_1384 : GatherDims S100000x384 S500000x1 S500000x384 where
  offsetDims := [1]
  collapsedSliceDims := [0]
  operandBatchingDims := []
  startIndicesBatchingDims := []
  startIndexMap := [0]
  indexVectorDim := 1
  sliceSizes := ![1, 384]
  wf := gather_S100000x384_S500000x1_S500000x384_1_0_n_n_0_1_1384_wf
def scatter_S100000x384_S500000x1_S500000x384_1_0_0_1 : ScatterDims S100000x384 S500000x1 S500000x384 where
  updateWindowDims := [1]
  insertedWindowDims := [0]
  scatterDimsToOperandDims := [0]
  indexVectorDim := 1
  wf := scatter_S100000x384_S500000x1_S500000x384_1_0_0_1_wf
def dot_S100000x768_S768x384_S100000x384_1_0_0_1_n_n : DotDims S100000x768 S768x384 S100000x384 where
  lhsContracting := [1]
  rhsContracting := [0]
  lhsNonContracting := [0]
  rhsNonContracting := [1]
  lhsBatch := []
  rhsBatch := []
  wf := dot_S100000x768_S768x384_S100000x384_1_0_0_1_n_n_wf
def dot_S100000x384_S384x1_S100000x1_1_0_0_1_n_n : DotDims S100000x384 S384x1 S100000x1 where
  lhsContracting := [1]
  rhsContracting := [0]
  lhsNonContracting := [0]
  rhsNonContracting := [1]
  lhsBatch := []
  rhsBatch := []
  wf := dot_S100000x384_S384x1_S100000x1_1_0_0_1_n_n_wf

class Facts : Prop extends Facts₀ where

variable [Facts]
-- ==== Proof.RefRunHand.lean ====
/- The reference's run, read stretch by stretch: @main is a straight line of 135 host operations; cut into four
   stretches (the edge lists and weights, the first layer, the edge lists and weights again, the second layer with the
   pooled score), each stretch's results are the reference's stages of the arguments, given that the buffers it reads
   hold earlier stages. Joined, every execution ends with the two results at the last stages and the arguments
   unchanged. -/
import proofs.«108951_j53120155517255_1_alg».proof.Proof.RefOps
import proofs.«108951_j53120155517255_1_alg».proof.Proof.RefRead
import Idealize.ShloMosaic.Lib.StableHlo.Run

noncomputable section

namespace Cert.ReferenceIdeal.HandRun

open Cert.ReferenceIdeal Cert.ReferenceIdeal.Gen Cert.ReferenceIdeal.ValueR Cert.ReferenceIdeal.ReadP
open Idealize.ShloMosaic Idealize.ShloMosaic.TcCoe Idealize.SL.Sem Idealize.ShloMosaic.StableHlo

variable {F : FTy → Type} [FloatOps F]

/-! ## The operation list in four stretches

The first stretch builds the edge lists and weights, the second the first layer, the third the edge lists and
weights again, the fourth the second layer and the pooled score. -/

abbrev cA : List (HloOp τ sig (Elt F)) := (ops (F := F)).take 40
abbrev cB : List (HloOp τ sig (Elt F)) := ((ops (F := F)).drop 40).take 28
abbrev cC : List (HloOp τ sig (Elt F)) := (((ops (F := F)).drop 40).drop 28).take 36
abbrev cD : List (HloOp τ sig (Elt F)) := (((ops (F := F)).drop 40).drop 28).drop 36

theorem ops_split : (ops (F := F)) = cA ++ (cB ++ (cC ++ cD)) := by
  show ops = List.take 40 ops ++ (List.take 28 (List.drop 40 ops) ++ (List.take 36 (List.drop 28 (List.drop 40 ops))
    ++ List.drop 36 (List.drop 28 (List.drop 40 ops))))
  rw [List.take_append_drop, List.take_append_drop, List.take_append_drop]

/-- The fold through two lines one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (W : Valuation τ sig (Elt F)) : after ops W = after cD (after cC (after cB (after cA W))) :=
  (congrArg (fun l => after l W) ops_split).trans (by rw [after_app, after_app, after_app])

/-- The operations' results still standing inside a concatenate's operand list, rewritten one at a time. -/
macro "results_rw" : tactic =>
  `(tactic| (repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))))

/-- A stretch as the literal list of its operations. -/
macro "stretch_lit" : tactic =>
  `(tactic| simp only [cA, cB, cC, cD, ops, List.drop_succ_cons, List.drop_zero, List.take_succ_cons, List.take_zero])

/-- No operation of the list writes the buffer: each writes its one result buffer, and the buffer is none of them. -/
macro "unwritten" : tactic =>
  `(tactic| (refine List.forall_iff_forall_mem.mp ?_
             simp only [cA, cB, cC, cD, ops, List.drop_succ_cons, List.drop_zero, List.take_succ_cons, List.take_zero,
               List.Forall, nullary_writes, unary_writes, binary_writes, ternary_writes, reshape_writes, Finset.mem_singleton]
             repeat' apply And.intro
             all_goals exact devRef_ne_of_ne (by decide)))

/-! ## No operation writes an argument -/

set_option maxHeartbeats 4000000 in
theorem arg0_unwritten : ∀ op ∈ (ops : List (HloOp τ sig (Elt F))), (Proc.devRef .tc main_arg0) ∉ op.writes := by unwritten
set_option maxHeartbeats 4000000 in
theorem arg1_unwritten : ∀ op ∈ (ops : List (HloOp τ sig (Elt F))), (Proc.devRef .tc main_arg1) ∉ op.writes := by unwritten
set_option maxHeartbeats 4000000 in
theorem arg2_unwritten : ∀ op ∈ (ops : List (HloOp τ sig (Elt F))), (Proc.devRef .tc main_arg2) ∉ op.writes := by unwritten
set_option maxHeartbeats 4000000 in
theorem arg3_unwritten : ∀ op ∈ (ops : List (HloOp τ sig (Elt F))), (Proc.devRef .tc main_arg3) ∉ op.writes := by unwritten
set_option maxHeartbeats 4000000 in
theorem arg4_unwritten : ∀ op ∈ (ops : List (HloOp τ sig (Elt F))), (Proc.devRef .tc main_arg4) ∉ op.writes := by unwritten
set_option maxHeartbeats 4000000 in
theorem arg5_unwritten : ∀ op ∈ (ops : List (HloOp τ sig (Elt F))), (Proc.devRef .tc main_arg5) ∉ op.writes := by unwritten
set_option maxHeartbeats 4000000 in
theorem arg6_unwritten : ∀ op ∈ (ops : List (HloOp τ sig (Elt F))), (Proc.devRef .tc main_arg6) ∉ op.writes := by unwritten
set_option maxHeartbeats 4000000 in
theorem arg7_unwritten : ∀ op ∈ (ops : List (HloOp τ sig (Elt F))), (Proc.devRef .tc main_arg7) ∉ op.writes := by unwritten

section Skip
variable {b : DevRef τ sig} (h : ∀ op ∈ (ops : List (HloOp τ sig (Elt F))), b ∉ op.writes) (V : Valuation τ sig (Elt F))
include h
theorem skipA : after cA V b = V b := after_of_forall_not_mem _ _ fun op hop => h op (List.mem_of_mem_take hop)
theorem skipB : after cB V b = V b :=
  after_of_forall_not_mem _ _ fun op hop => h op (List.mem_of_mem_drop (List.mem_of_mem_take hop))
theorem skipC : after cC V b = V b :=
  after_of_forall_not_mem _ _ fun op hop => h op (List.mem_of_mem_drop (List.mem_of_mem_drop (List.mem_of_mem_take hop)))
theorem skipD : after cD V b = V b :=
  after_of_forall_not_mem _ _ fun op hop => h op (List.mem_of_mem_drop (List.mem_of_mem_drop (List.mem_of_mem_drop hop)))
theorem skipAll : after ops V b = V b := after_of_forall_not_mem _ _ h
end Skip

/-! ## Each stretch reads as the reference's stages

A stretch's result, from contents whose live buffers hold stages of the arguments, is the stage the operations
name: the stage's definition unfolds to the same operations over the same earlier stages. -/

set_option maxHeartbeats 4000000 in
theorem A_v1 (V : Valuation τ sig (Elt F)) :
    after cA V (Proc.devRef .tc main_v1) = val_main_v1 (F := F) (V (Proc.devRef .tc main_arg1)) := by
  stretch_lit; after_results_simp
  generalize V (Proc.devRef .tc main_arg1) = x1
  rfl
set_option maxHeartbeats 4000000 in
theorem A_v3 (V : Valuation τ sig (Elt F)) :
    after cA V (Proc.devRef .tc main_v3) = val_main_v3 (F := F) (V (Proc.devRef .tc main_arg1)) := by
  stretch_lit; after_results_simp
  generalize V (Proc.devRef .tc main_arg1) = x1
  rfl
set_option maxHeartbeats 4000000 in
theorem A_v5 (V : Valuation τ sig (Elt F)) :
    after cA V (Proc.devRef .tc main_v5) = val_main_v5 (F := F) (V (Proc.devRef .tc main_arg1)) := by
  stretch_lit; after_results_simp; results_rw
  generalize V (Proc.devRef .tc main_arg1) = x1
  rfl
set_option maxHeartbeats 4000000 in
theorem A_v6 (V : Valuation τ sig (Elt F)) :
    after cA V (Proc.devRef .tc main_v6) = val_main_v6 (F := F) (V (Proc.devRef .tc main_arg1)) := by
  stretch_lit; after_results_simp; results_rw
  generalize V (Proc.devRef .tc main_arg1) = x1
  rfl
set_option maxHeartbeats 4000000 in
theorem A_v29 (V : Valuation τ sig (Elt F)) :
    after cA V (Proc.devRef .tc main_v29) = val_main_v29 (F := F) (V (Proc.devRef .tc main_arg1)) := by
  stretch_lit; after_results_simp; results_rw
  generalize V (Proc.devRef .tc main_arg1) = x1
  rfl

set_option maxHeartbeats 4000000 in
theorem B_v52 (V : Valuation τ sig (Elt F)) (x0 : (⟨S100000x384, .f32⟩ : BufTy).Contents (Elt F)) (x1 : (⟨S2x400000, .i32⟩ : BufTy).Contents (Elt F)) (x2 : (⟨S384x384, .f32⟩ : BufTy).Contents (Elt F)) (x3 : (⟨S384, .f32⟩ : BufTy).Contents (Elt F))
    (h0 : V (Proc.devRef .tc main_arg0) = x0) (h2 : V (Proc.devRef .tc main_arg2) = x2) (h3 : V (Proc.devRef .tc main_arg3) = x3)
    (h5 : V (Proc.devRef .tc main_v5) = val_main_v5 (F := F) x1) (h6 : V (Proc.devRef .tc main_v6) = val_main_v6 (F := F) x1)
    (h29 : V (Proc.devRef .tc main_v29) = val_main_v29 (F := F) x1) :
    after cB V (Proc.devRef .tc main_v52) = val_main_v52 (F := F) x0 x1 x2 x3 := by
  stretch_lit; after_results_simp; results_rw
  rw [h0, h2, h3, h5, h6, h29]
  rfl

set_option maxHeartbeats 4000000 in
theorem C_v54 (V : Valuation τ sig (Elt F)) (x1 : (⟨S2x400000, .i32⟩ : BufTy).Contents (Elt F)) (h1 : V (Proc.devRef .tc main_v1) = val_main_v1 (F := F) x1) :
    after cC V (Proc.devRef .tc main_v54) = val_main_v54 (F := F) x1 := by
  stretch_lit; after_results_simp; results_rw
  rw [h1]
  rfl
set_option maxHeartbeats 4000000 in
theorem C_v55 (V : Valuation τ sig (Elt F)) (x1 : (⟨S2x400000, .i32⟩ : BufTy).Contents (Elt F)) (h3 : V (Proc.devRef .tc main_v3) = val_main_v3 (F := F) x1) :
    after cC V (Proc.devRef .tc main_v55) = val_main_v55 (F := F) x1 := by
  stretch_lit; after_results_simp; results_rw
  rw [h3]
  rfl
set_option maxHeartbeats 4000000 in
theorem C_v78 (V : Valuation τ sig (Elt F)) (x1 : (⟨S2x400000, .i32⟩ : BufTy).Contents (Elt F)) (h1 : V (Proc.devRef .tc main_v1) = val_main_v1 (F := F) x1)
    (h3 : V (Proc.devRef .tc main_v3) = val_main_v3 (F := F) x1) :
    after cC V (Proc.devRef .tc main_v78) = val_main_v78 (F := F) x1 := by
  stretch_lit; after_results_simp; results_rw
  rw [h1, h3]
  rfl

set_option maxHeartbeats 4000000 in
theorem D_v100 (V : Valuation τ sig (Elt F)) (x0 : (⟨S100000x384, .f32⟩ : BufTy).Contents (Elt F)) (x1 : (⟨S2x400000, .i32⟩ : BufTy).Contents (Elt F)) (x2 : (⟨S384x384, .f32⟩ : BufTy).Contents (Elt F)) (x3 : (⟨S384, .f32⟩ : BufTy).Contents (Elt F)) (x4 : (⟨S768x384, .f32⟩ : BufTy).Contents (Elt F)) (x5 : (⟨S384, .f32⟩ : BufTy).Contents (Elt F))
    (h52 : V (Proc.devRef .tc main_v52) = val_main_v52 (F := F) x0 x1 x2 x3) (h4 : V (Proc.devRef .tc main_arg4) = x4) (h5 : V (Proc.devRef .tc main_arg5) = x5)
    (h78 : V (Proc.devRef .tc main_v78) = val_main_v78 (F := F) x1) (h54 : V (Proc.devRef .tc main_v54) = val_main_v54 (F := F) x1)
    (h55 : V (Proc.devRef .tc main_v55) = val_main_v55 (F := F) x1) :
    after cD V (Proc.devRef .tc main_v100) = val_main_v100 (F := F) x0 x1 x2 x3 x4 x5 := by
  stretch_lit; after_results_simp
  rw [h52, h4, h5, h78, h54, h55]
  rfl

set_option maxHeartbeats 4000000 in
theorem D_v104 (V : Valuation τ sig (Elt F)) (x0 : (⟨S100000x384, .f32⟩ : BufTy).Contents (Elt F)) (x1 : (⟨S2x400000, .i32⟩ : BufTy).Contents (Elt F)) (x2 : (⟨S384x384, .f32⟩ : BufTy).Contents (Elt F)) (x3 : (⟨S384, .f32⟩ : BufTy).Contents (Elt F)) (x4 : (⟨S768x384, .f32⟩ : BufTy).Contents (Elt F)) (x5 : (⟨S384, .f32⟩ : BufTy).Contents (Elt F)) (x6 : (⟨S384x1, .f32⟩ : BufTy).Contents (Elt F)) (x7 : (⟨S1, .f32⟩ : BufTy).Contents (Elt F))
    (h52 : V (Proc.devRef .tc main_v52) = val_main_v52 (F := F) x0 x1 x2 x3) (h4 : V (Proc.devRef .tc main_arg4) = x4) (h5 : V (Proc.devRef .tc main_arg5) = x5)
    (h6 : V (Proc.devRef .tc main_arg6) = x6) (h7 : V (Proc.devRef .tc main_arg7) = x7)
    (h78 : V (Proc.devRef .tc main_v78) = val_main_v78 (F := F) x1) (h54 : V (Proc.devRef .tc main_v54) = val_main_v54 (F := F) x1)
    (h55 : V (Proc.devRef .tc main_v55) = val_main_v55 (F := F) x1) :
    after cD V (Proc.devRef .tc main_v104) = val_main_v104 (F := F) x0 x1 x2 x3 x4 x5 x6 x7 := by
  stretch_lit; after_results_simp
  rw [h52, h4, h5, h6, h7, h78, h54, h55]
  rfl

/-! ## Buffers a later stretch reads across one that does not write them -/

set_option maxHeartbeats 4000000 in
theorem B_skip_v1 (V : Valuation τ sig (Elt F)) : after cB V (Proc.devRef .tc main_v1) = V (Proc.devRef .tc main_v1) :=
  after_of_forall_not_mem _ _ (by unwritten)
set_option maxHeartbeats 4000000 in
theorem B_skip_v3 (V : Valuation τ sig (Elt F)) : after cB V (Proc.devRef .tc main_v3) = V (Proc.devRef .tc main_v3) :=
  after_of_forall_not_mem _ _ (by unwritten)
set_option maxHeartbeats 4000000 in
theorem C_skip_v52 (V : Valuation τ sig (Elt F)) : after cC V (Proc.devRef .tc main_v52) = V (Proc.devRef .tc main_v52) :=
  after_of_forall_not_mem _ _ (by unwritten)

/-! ## The whole list -/

section Whole
variable (W : Valuation τ sig (Elt F))

theorem c_v52 : after cC (after cB (after cA W)) (Proc.devRef .tc main_v52)
    = val_main_v52 (F := F) (W (Proc.devRef .tc main_arg0)) (W (Proc.devRef .tc main_arg1)) (W (Proc.devRef .tc main_arg2)) (W (Proc.devRef .tc main_arg3)) :=
  (C_skip_v52 _).trans (B_v52 (after cA W) _ _ _ _ (skipA arg0_unwritten W) (skipA arg2_unwritten W) (skipA arg3_unwritten W)
    (A_v5 W) (A_v6 W) (A_v29 W))
theorem b_v1 : after cB (after cA W) (Proc.devRef .tc main_v1) = val_main_v1 (F := F) (W (Proc.devRef .tc main_arg1)) :=
  (B_skip_v1 _).trans (A_v1 W)
theorem b_v3 : after cB (after cA W) (Proc.devRef .tc main_v3) = val_main_v3 (F := F) (W (Proc.devRef .tc main_arg1)) :=
  (B_skip_v3 _).trans (A_v3 W)
theorem c_arg (b : DevRef τ sig) (h : ∀ op ∈ (ops : List (HloOp τ sig (Elt F))), b ∉ op.writes) :
    after cC (after cB (after cA W)) b = W b :=
  (skipC h _).trans ((skipB h _).trans (skipA h W))

theorem out100 : after ops W (Proc.devRef .tc main_v100)
    = val_main_v100 (F := F) (W (Proc.devRef .tc main_arg0)) (W (Proc.devRef .tc main_arg1)) (W (Proc.devRef .tc main_arg2)) (W (Proc.devRef .tc main_arg3))
        (W (Proc.devRef .tc main_arg4)) (W (Proc.devRef .tc main_arg5)) :=
  (congrFun (after_ops W) _).trans (D_v100 _ _ _ _ _ _ _ (c_v52 W) (c_arg W _ arg4_unwritten) (c_arg W _ arg5_unwritten)
    (C_v78 _ _ (b_v1 W) (b_v3 W)) (C_v54 _ _ (b_v1 W)) (C_v55 _ _ (b_v3 W)))

theorem out104 : after ops W (Proc.devRef .tc main_v104)
    = val_main_v104 (F := F) (W (Proc.devRef .tc main_arg0)) (W (Proc.devRef .tc main_arg1)) (W (Proc.devRef .tc main_arg2)) (W (Proc.devRef .tc main_arg3))
        (W (Proc.devRef .tc main_arg4)) (W (Proc.devRef .tc main_arg5)) (W (Proc.devRef .tc main_arg6)) (W (Proc.devRef .tc main_arg7)) :=
  (congrFun (after_ops W) _).trans (D_v104 _ _ _ _ _ _ _ _ _ (c_v52 W) (c_arg W _ arg4_unwritten) (c_arg W _ arg5_unwritten)
    (c_arg W _ arg6_unwritten) (c_arg W _ arg7_unwritten) (C_v78 _ _ (b_v1 W) (b_v3 W)) (C_v54 _ _ (b_v1 W)) (C_v55 _ _ (b_v3 W)))

end Whole

/-! ## The run -/

/-- On every device, from any memory with zero counters: every weakly fair execution of @main terminates with the
    two results at the reference's last stages of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v100) = Cert.ReferenceIdeal.ReadP.val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v104) = Cert.ReferenceIdeal.ReadP.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v100).trans (out100 (launchContents m c)),
      (h c main_v104).trans (out104 (launchContents m c)),
      (h c main_arg0).trans (skipAll arg0_unwritten (launchContents m c)),
      (h c main_arg1).trans (skipAll arg1_unwritten (launchContents m c)),
      (h c main_arg2).trans (skipAll arg2_unwritten (launchContents m c)),
      (h c main_arg3).trans (skipAll arg3_unwritten (launchContents m c)),
      (h c main_arg4).trans (skipAll arg4_unwritten (launchContents m c)),
      (h c main_arg5).trans (skipAll arg5_unwritten (launchContents m c)),
      (h c main_arg6).trans (skipAll arg6_unwritten (launchContents m c)),
      (h c main_arg7).trans (skipAll arg7_unwritten (launchContents m c))⟩)
    (run_seq scopedRefs_eq scopedSems_eq defs main (fun _ => ops) main_eq (fun _ => ops_sub) m ρ)

end Cert.ReferenceIdeal.HandRun

end
-- ==== Proof.RefSide.lean ====
/-
  The reference's side of the bridge. Both programs are a two-layer graph convolution over 100000 nodes with
  400000 edges plus one self-loop per node: a node's new feature row is the sum, over the edges that end at it,
  of the edge weight (the product of the inverse square roots of the two endpoint degrees) times the source
  node's linearly transformed row. Here the reference's stages are regrouped as three functions of the arrays
  that go INTO them: the neighbourhood sum `aggregate`, the first layer's output `leakyConcat` (the input rows
  beside the aggregated rows plus bias, through the leaky rectifier), and the second layer's output `leakyBias`
  with its pooled score `pooled`. Each stage of the reference's run is one of these functions of earlier
  stages, by unfolding alone; the reference builds its edge lists and weights twice, from the same edge array,
  and the two copies are one term.
-/
import proofs.«108951_j53120155517255_1_alg».proof.Proof.RefRead

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

/-- The sum over incoming edges: row `e` of `h` at the (wrapped) source index, scaled by the edge's weight,
    added into the row named by the target index. -/
def aggregate (nrm : (⟨S500000, .f32⟩ : BufTy).Contents (Elt Ideal)) (srcI dstI : (⟨S500000, .i32⟩ : BufTy).Contents (Elt Ideal))
    (h : (⟨S100000x384, .f32⟩ : BufTy).Contents (Elt Ideal)) : (⟨S100000x384, .f32⟩ : BufTy).Contents (Elt Ideal) :=
  Host.scatterAdd (F := Ideal) scatter_S100000x384_S500000x1_S500000x384_1_0_0_1
    (broadcastInDim S100000x384 ![] bcast_S_S100000x384 (constant (F := Ideal) S_ .f32 0x00000000#32))
    (broadcastInDim S500000x1 ![0] bcast_S500000_S500000x1_0 dstI)
    (mulf (F := Ideal) (φ := .f32) (broadcastInDim S500000x384 ![0, 1] bcast_S500000x1_S500000x384_0_1 (broadcastInDim S500000x1 ![0] bcast_S500000_S500000x1_0 nrm))
      (Host.gather gather_S100000x384_S500000x1_S500000x384_1_0_n_n_0_1_1384 h
        (broadcastInDim S500000x1 ![0] bcast_S500000_S500000x1_0
          (select (cmpi .slt srcI (broadcastInDim S500000 ![] bcast_S_S500000 (constantI S_ 32 0#32)))
            (addi srcI (broadcastInDim S500000 ![] bcast_S_S500000 (constantI S_ 32 100000#32))) srcI))))

/-- The input rows beside the aggregated rows plus bias, 768 columns. -/
def joined (x agg : (⟨S100000x384, .f32⟩ : BufTy).Contents (Elt Ideal)) (b : (⟨S384, .f32⟩ : BufTy).Contents (Elt Ideal)) :
    (⟨S100000x768, .f32⟩ : BufTy).Contents (Elt Ideal) :=
  concatenate S100000x768 1 [⟨S100000x384, x⟩, ⟨S100000x384, addf (F := Ideal) (φ := .f32) agg (broadcastInDim S100000x384 ![0, 1] bcast_S1x384_S100000x384_0_1
    (broadcastInDim S1x384 ![1] bcast_S384_S1x384_1 b))⟩] concatenates_S100000x384_S100000x384_S100000x768_d1

/-- The first layer's output: the leaky rectifier (slope the float nearest 0.01) of `joined`. -/
def leakyConcat (x agg : (⟨S100000x384, .f32⟩ : BufTy).Contents (Elt Ideal)) (b : (⟨S384, .f32⟩ : BufTy).Contents (Elt Ideal)) :
    (⟨S100000x768, .f32⟩ : BufTy).Contents (Elt Ideal) :=
  select (cmpf (F := Ideal) (φ := .f32) .oge (joined x agg b) (broadcastInDim S100000x768 ![] bcast_S_S100000x768 (constant (F := Ideal) S_ .f32 0x00000000#32)))
    (joined x agg b)
    (mulf (F := Ideal) (φ := .f32) (broadcastInDim S100000x768 ![] bcast_S_S100000x768 (constant (F := Ideal) S_ .f32 0x3C23D70A#32)) (joined x agg b))

/-- Aggregated rows plus bias. -/
def biased (agg : (⟨S100000x384, .f32⟩ : BufTy).Contents (Elt Ideal)) (b : (⟨S384, .f32⟩ : BufTy).Contents (Elt Ideal)) :
    (⟨S100000x384, .f32⟩ : BufTy).Contents (Elt Ideal) :=
  addf (F := Ideal) (φ := .f32) agg (broadcastInDim S100000x384 ![0, 1] bcast_S1x384_S100000x384_0_1 (broadcastInDim S1x384 ![1] bcast_S384_S1x384_1 b))

/-- The second layer's output: the leaky rectifier of the aggregated rows plus bias. -/
def leakyBias (agg : (⟨S100000x384, .f32⟩ : BufTy).Contents (Elt Ideal)) (b : (⟨S384, .f32⟩ : BufTy).Contents (Elt Ideal)) :
    (⟨S100000x384, .f32⟩ : BufTy).Contents (Elt Ideal) :=
  select (cmpf (F := Ideal) (φ := .f32) .oge (biased agg b) (broadcastInDim S100000x384 ![] bcast_S_S100000x384 (constant (F := Ideal) S_ .f32 0x00000000#32)))
    (biased agg b)
    (mulf (F := Ideal) (φ := .f32) (broadcastInDim S100000x384 ![] bcast_S_S100000x384 (constant (F := Ideal) S_ .f32 0x3C23D70A#32)) (biased agg b))

/-- The pooled score: each output row against the pooling column, plus the pooling bias. -/
def pooled (z : (⟨S100000x384, .f32⟩ : BufTy).Contents (Elt Ideal)) (wp : (⟨S384x1, .f32⟩ : BufTy).Contents (Elt Ideal))
    (bp : (⟨S1, .f32⟩ : BufTy).Contents (Elt Ideal)) : (⟨S100000x1, .f32⟩ : BufTy).Contents (Elt Ideal) :=
  addf (F := Ideal) (φ := .f32) (Host.dotGeneral (F := Ideal) (φ₁ := .f32) (φ₂ := .f32) dot_S100000x384_S384x1_S100000x1_1_0_0_1_n_n none z wp)
    (broadcastInDim S100000x1 ![0, 1] bcast_S1x1_S100000x1_0_1 (broadcastInDim S1x1 ![1] bcast_S1_S1x1_1 bp))

/-- The second linear map, on the 768-column rows. -/
def secondLinear (y : (⟨S100000x768, .f32⟩ : BufTy).Contents (Elt Ideal)) (w : (⟨S768x384, .f32⟩ : BufTy).Contents (Elt Ideal)) :
    (⟨S100000x384, .f32⟩ : BufTy).Contents (Elt Ideal) :=
  Host.dotGeneral (F := Ideal) (φ₁ := .f32) (φ₂ := .f32) dot_S100000x768_S768x384_S100000x384_1_0_0_1_n_n none y w

variable (x0 : (⟨S100000x384, .f32⟩ : BufTy).Contents (Elt Ideal)) (x1 : (⟨S2x400000, .i32⟩ : BufTy).Contents (Elt Ideal))
  (x2 : (⟨S384x384, .f32⟩ : BufTy).Contents (Elt Ideal)) (x3 : (⟨S384, .f32⟩ : BufTy).Contents (Elt Ideal))
  (x4 : (⟨S768x384, .f32⟩ : BufTy).Contents (Elt Ideal)) (x5 : (⟨S384, .f32⟩ : BufTy).Contents (Elt Ideal))
  (x6 : (⟨S384x1, .f32⟩ : BufTy).Contents (Elt Ideal)) (x7 : (⟨S1, .f32⟩ : BufTy).Contents (Elt Ideal))

/-- The reference's second copy of the edge lists and weights is its first. -/
theorem src_again : val_main_v54 (F := Ideal) x1 = val_main_v5 (F := Ideal) x1 := rfl
theorem dst_again : val_main_v55 (F := Ideal) x1 = val_main_v6 (F := Ideal) x1 := rfl
theorem norm_again : val_main_v78 (F := Ideal) x1 = val_main_v29 (F := Ideal) x1 := rfl

theorem agg1_eq : val_main_v43 (F := Ideal) x0 x1 x2
    = aggregate (val_main_v29 (F := Ideal) x1) (val_main_v5 (F := Ideal) x1) (val_main_v6 (F := Ideal) x1) (val_main_v30 (F := Ideal) x0 x2) := rfl

theorem y_eq : val_main_v52 (F := Ideal) x0 x1 x2 x3 = leakyConcat x0 (val_main_v43 (F := Ideal) x0 x1 x2) x3 := rfl

theorem h2_eq : val_main_v79 (F := Ideal) x0 x1 x2 x3 x4 = secondLinear (val_main_v52 (F := Ideal) x0 x1 x2 x3) x4 := rfl

theorem agg2_eq : val_main_v92 (F := Ideal) x0 x1 x2 x3 x4
    = aggregate (val_main_v29 (F := Ideal) x1) (val_main_v5 (F := Ideal) x1) (val_main_v6 (F := Ideal) x1) (val_main_v79 (F := Ideal) x0 x1 x2 x3 x4) := rfl

theorem z_eq : val_main_v100 (F := Ideal) x0 x1 x2 x3 x4 x5 = leakyBias (val_main_v92 (F := Ideal) x0 x1 x2 x3 x4) x5 := rfl

theorem a_eq : val_main_v104 (F := Ideal) x0 x1 x2 x3 x4 x5 x6 x7 = pooled (val_main_v100 (F := Ideal) x0 x1 x2 x3 x4 x5) x6 x7 := rfl

end Cert.ReferenceIdeal.RefValue

end
-- ==== Proof.Region0.lean ====
/- The first linear map, region by region: 100 grid points, point t computing rows 1000·t … 1000·t+999 of x·W1.
   The body's block product is read entry by entry as a dot product over the 384 shared columns; each point's row
   block and the weights are read off the arrays through the windows' index maps; the hundred row blocks tile the
   output array, so after the last write-back it is the whole product, which is the reference's dot_general. -/
import proofs.«108951_j53120155517255_1_alg».proof.Proof.Gen.KernelIdeal.Frame
import proofs.«108951_j53120155517255_1_alg».proof.Proof.RefSide
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The block product at an index -/

theorem mm0_lhs_0 (j : S1000x384.Idx) (q : dot_S1000x384_S384x384_S1000x384_1_0_0_1_n_n.contr.Idx) :
    (dot_S1000x384_S384x384_S1000x384_1_0_0_1_n_n.lhsIdx j q 0).val = (j 0).val := by
  unfold DotDims.lhsIdx
  rw [dif_neg (show ¬(0 : Fin S1000x384.rank) ∈ dot_S1000x384_S384x384_S1000x384_1_0_0_1_n_n.lhsBatch by decide), dif_pos (show (0 : Fin S1000x384.rank) ∈ dot_S1000x384_S384x384_S1000x384_1_0_0_1_n_n.lhsNonContracting by decide)]
  rfl
theorem mm0_lhs_1 (j : S1000x384.Idx) (q : dot_S1000x384_S384x384_S1000x384_1_0_0_1_n_n.contr.Idx) :
    (dot_S1000x384_S384x384_S1000x384_1_0_0_1_n_n.lhsIdx j q 1).val = (q ⟨0, by decide⟩).val :=
  dot_S1000x384_S384x384_S1000x384_1_0_0_1_n_n.lhsIdx_val_of_single rfl j q
theorem mm0_rhs_0 (j : S1000x384.Idx) (q : dot_S1000x384_S384x384_S1000x384_1_0_0_1_n_n.contr.Idx) :
    (dot_S1000x384_S384x384_S1000x384_1_0_0_1_n_n.rhsIdx j q 0).val = (q ⟨0, by decide⟩).val :=
  dot_S1000x384_S384x384_S1000x384_1_0_0_1_n_n.rhsIdx_val_of_single rfl j q
theorem mm0_rhs_1 (j : S1000x384.Idx) (q : dot_S1000x384_S384x384_S1000x384_1_0_0_1_n_n.contr.Idx) :
    (dot_S1000x384_S384x384_S1000x384_1_0_0_1_n_n.rhsIdx j q 1).val = (j 1).val := by
  unfold DotDims.rhsIdx
  rw [dif_neg (show ¬(1 : Fin S384x384.rank) ∈ dot_S1000x384_S384x384_S1000x384_1_0_0_1_n_n.rhsBatch by decide), dif_pos (show (1 : Fin S384x384.rank) ∈ dot_S1000x384_S384x384_S1000x384_1_0_0_1_n_n.rhsNonContracting by decide)]
  rfl

/-- Entry (p, q) of the body's result is the dot product of row p of the row block with column q of the weights. -/
theorem pay0_apply (x0 : Vec Ideal S1000x384 .f32) (x1 : Vec Ideal S384x384 .f32) (p : Fin 1000) (q : Fin 384) :
    k0_pay1 (F := Ideal) x0 x1 (ix2 p q) = ∑ k : Fin 384, x0 (ix2 p k) * x1 (ix2 k q) := by
  unfold k0_pay1
  refine (Ideal.matmul_constant_zero_apply dot_S1000x384_S384x384_S1000x384_1_0_0_1_n_n none _ _ (ix2 p q)).trans ?_
  rw [← Equiv.sum_comp (contrEquiv1 dot_S1000x384_S384x384_S1000x384_1_0_0_1_n_n 384 rfl rfl).symm]
  refine Finset.sum_congr rfl fun k _ => ?_
  have hk := contrEquiv1_symm_val dot_S1000x384_S384x384_S1000x384_1_0_0_1_n_n 384 rfl rfl k
  have el : dot_S1000x384_S384x384_S1000x384_1_0_0_1_n_n.lhsIdx (ix2 p q) ((contrEquiv1 dot_S1000x384_S384x384_S1000x384_1_0_0_1_n_n 384 rfl rfl).symm k) = ix2 p k := funext fun a => Fin.ext (by
    match a with
    | ⟨0, _⟩ => exact mm0_lhs_0 _ _
    | ⟨1, _⟩ => exact (mm0_lhs_1 _ _).trans hk)
  have er : dot_S1000x384_S384x384_S1000x384_1_0_0_1_n_n.rhsIdx (ix2 p q) ((contrEquiv1 dot_S1000x384_S384x384_S1000x384_1_0_0_1_n_n 384 rfl rfl).symm k) = ix2 k q := funext fun a => Fin.ext (by
    match a with
    | ⟨0, _⟩ => exact (mm0_rhs_0 _ _).trans hk
    | ⟨1, _⟩ => exact mm0_rhs_1 _ _)
  rw [el, er]
  rfl

/-! ## The whole product, and each point's share of it -/

/-- Entry (r, q) of the product of a 100000x384 array with a 384x384 array. -/
def prod0 (X : S100000x384.Idx → Elt Ideal .f32) (W : S384x384.Idx → Elt Ideal .f32) : S100000x384.Idx → Elt Ideal .f32 :=
  fun i => ∑ k : Fin 384, X (ix2 (i 0) k) * W (ix2 k (i 1))

/-- A block product whose row block is rows of X (row j 0 of the block being row i 0 of X) and whose weights are W
    is, at (j 0, j 1), the whole product at (i 0, i 1) when the columns agree. -/
theorem pay0_eq_prod0 (x0 : Vec Ideal S1000x384 .f32) (x1 : Vec Ideal S384x384 .f32)
    (X : S100000x384.Idx → Elt Ideal .f32) (W : S384x384.Idx → Elt Ideal .f32) (j : S1000x384.Idx) (i : S100000x384.Idx)
    (h0 : ∀ k : Fin 384, x0 (ix2 (j 0) k) = X (ix2 (i 0) k)) (h1 : ∀ k : Fin 384, x1 (ix2 k (j 1)) = W (ix2 k (i 1))) :
    k0_pay1 (F := Ideal) x0 x1 j = prod0 X W i := by
  obtain ⟨p, q, rfl⟩ : ∃ (p : Fin 1000) (q : Fin 384), j = ix2 p q := ⟨j 0, j 1, eq_ix2 j⟩
  rw [pay0_apply]
  unfold prod0
  exact Finset.sum_congr rfl fun k _ => by rw [h0 k, h1 k]

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: at point t the row windows sit at block row t, block column 0, and the
    weights' window at block (0, 0). -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 1000·t … 1000·t+999 of the whole product. -/
theorem flushed0_eq (c : Dev nD) (t : Fin cfg0.N) :
    (dat0 (F := Ideal) V c).flushed 2 t
      = ((cfg0.win 2).blk t).view.read (Elt Ideal) (prod0 (V c main_arg0) (V c main_arg2)) := by
  show (cfg0.win 2).cut (grid0.coords t) ((dat0 (F := Ideal) V c).after 2 t) = _
  rw [after0_2]
  unfold out0_2
  rw [View.canon_unit_zero hz0]
  simp only [View.ld_unit_zero (S := S1000x384) hz0, View.ld_unit_zero (S := S384x384) hz0]
  obtain ⟨e0, e1, e2, e3, e4, e5⟩ := idx0_facts t
  funext j
  show k0_pay1 (F := Ideal) (iblk0 V c 0 t) (iblk0 V c 1 t) j = prod0 (V c main_arg0) (V c main_arg2) (((cfg0.win 2).blk t).view.emb j)
  refine pay0_eq_prod0 (iblk0 V c 0 t) (iblk0 V c 1 t) (V c main_arg0) (V c main_arg2) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 384 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 384 + 1 * k.val = k.val; omega
    | ⟨1, _⟩ => show win0_1.index t (1 : Fin 2) * 384 + 1 * (j 1).val = win0_2.index t (1 : Fin 2) * 384 + 1 * (j 1).val; omega

/-- An index of the array is in point t's block iff each coordinate is in the block's range on its axis. -/
theorem mem_blk0 (t : Fin cfg0.N) (i : S100000x384.Idx) :
    i ∈ ((cfg0.win 2).blk t).view.set ↔ ∀ a : Fin 2, win0_2.index t a * S1000x384.size a ≤ (i a).val ∧ (i a).val < win0_2.index t a * S1000x384.size a + S1000x384.size a := by
  show i ∈ ((View.whole main_v30).slice (win0_2.rect t)).set ↔ _
  rw [View.set_slice_whole, Rect.mem_set_unit]
  exact Iff.rfl

/-- Row r lies in the block of point r / 1000. -/
theorem cover0 (i : S100000x384.Idx) :
    ∃ t : Fin cfg0.N, (cfg0.win 2).flush t = true ∧ i ∈ ((cfg0.win 2).blk t).view.set := by
  have hi0 : (i 0).val < 100000 := (i 0).isLt
  have hi1 : (i 1).val < 384 := (i 1).isLt
  have hN : grid0.N = 100 := N_0
  obtain ⟨t, ht⟩ : ∃ t : Fin cfg0.N, t.val = (i 0).val / 1000 := ⟨⟨(i 0).val / 1000, by show _ < grid0.N; rw [hN]; omega⟩, rfl⟩
  obtain ⟨e0, e1, e2, e3, e4, e5⟩ := idx0_facts t
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 384 ≤ (i 1).val ∧ (i 1).val < win0_2.index t (1 : Fin 2) * 384 + 384; omega

/-- After the hundred write-backs the output array is the whole product. -/
theorem arr0_eq_prod0 (c : Dev nD) :
    (dat0 (F := Ideal) V c).arrAt 2 cfg0.N = prod0 (V c main_arg0) (V c main_arg2) :=
  (dat0 (F := Ideal) V c).arrAt_eq_of_cover 2 (prod0 (V c main_arg0) (V c main_arg2)) (fun t _ => flushed0_eq V c t) cover0

/-- After the first pallas_call its output array holds the whole product of the two arrays it read. -/
theorem region0 (c : Dev nD) :
    (dat0 (F := Ideal) V c).arrAt 2 cfg0.N
      = Cert.ReferenceIdeal.ReadP.val_main_v30 (F := Ideal) (V c main_arg0) (V c main_arg2) := by
  rw [arr0_eq_prod0]
  funext i
  refine Eq.trans ?_ (Cert.ReferenceIdeal.ReadP.val_main_v30_apply (V c main_arg0) (V c main_arg2) i).symm
  unfold prod0
  refine Finset.sum_congr rfl fun k _ => ?_
  have el : Cert.ReferenceIdeal.ReadP.lidx_main_v30 i k = ix2 (i 0) k :=
    funext fun a => by match a with | ⟨0, _⟩ => rfl | ⟨1, _⟩ => rfl
  have er : Cert.ReferenceIdeal.ReadP.ridx_main_v30 i k = ix2 k (i 1) :=
    funext fun a => by match a with | ⟨0, _⟩ => rfl | ⟨1, _⟩ => rfl
  rw [el, er]
  rfl

end Cert.KernelIdeal.RegionValue

end
-- ==== Proof.Region1.lean ====
/- The first layer's output, region by region: the second of the program's four kernel regions. Each of its 100 grid points takes rows
   1000·t … 1000·t + 999 of the input and of the aggregated array, and the whole bias, and stores two 1000 × 384 panels
   side by side: the leaky rectifier of the input rows in columns 0..383 and the leaky rectifier of the aggregated rows
   plus the bias in columns 384..767. The reference concatenates the two arrays along the columns first and applies the
   rectifier to the 768-column array; read at an index, both are the same value of the same entries. -/
import proofs.«108951_j53120155517255_1_alg».proof.Proof.Gen.KernelIdeal.Frame
import proofs.«108951_j53120155517255_1_alg».proof.Proof.RefSide
import Idealize.ShloMosaic.Lib.Pipeline.Value
import Idealize.ShloMosaic.Lib.ValueIdx

set_option maxRecDepth 16384

noncomputable section

/-! ## The reference's first-layer output at an index -/

namespace Cert.ReferenceIdeal.Region1

open Cert.ReferenceIdeal Cert.ReferenceIdeal.Gen Cert.ReferenceIdeal.RefValue Idealize.ShloMosaic Idealize.ShloMosaic.TcCoe Idealize.SL.Sem
open Idealize.ShloMosaic.ValueIdx

/-- The leaky rectifier on one value: the value itself where it is at least zero, else the slope (the float nearest
    0.01) times it. -/
def leaky (v : Ideal .f32) : Ideal .f32 :=
  Scalar.select (FloatOps.cmpf .oge v (FloatOps.ofBits .f32 0x00000000#32)) v
    (FloatOps.mulf (FloatOps.ofBits .f32 0x3C23D70A#32) v)

variable (x agg : (⟨S100000x384, .f32⟩ : BufTy).Contents (Elt Ideal)) (b : (⟨S384, .f32⟩ : BufTy).Contents (Elt Ideal))

/-- The select, the comparison, the product and the two broadcast constants are pointwise: the first layer's output at
    an index is the rectifier of the joined array there. -/
theorem leakyConcat_apply (j : S100000x768.Idx) : leakyConcat x agg b j = leaky (joined x agg b j) := rfl

/-- In columns 0..383 the joined array is the input: column `q` of row `r` reads `x` at `(r, q)`. -/
theorem joined_left (j : S100000x768.Idx) (i : S100000x384.Idx) (h0 : (i 0).val = (j 0).val) (h1 : (i 1).val = (j 1).val) :
    joined x agg b j = x i := by
  unfold joined
  exact concatenate_pair_apply_left (s₁ := S100000x384) (s₂ := S100000x384) (1 : Fin 2) _ _ _ j rfl i
    (fun a => match a with | ⟨0, _⟩ => h0 | ⟨1, _⟩ => h1)

/-- In columns 384..767 it is the aggregated rows plus the bias: column `384 + q` of row `r` reads `agg (r, q) + b q`
    (the bias is broadcast first to one row, then down the rows). -/
theorem joined_right (j : S100000x768.Idx) (i : S100000x384.Idx) (k : S384.Idx) (h0 : (i 0).val = (j 0).val)
    (h1 : (i 1).val + 384 = (j 1).val) (hk : (k 0).val = (i 1).val) :
    joined x agg b j = (FloatOps.addf (agg i) (b k) : Ideal .f32) := by
  obtain ⟨q, rfl⟩ : ∃ q : Fin 384, k = ix1 q := ⟨k 0, eq_ix1 k⟩
  unfold joined
  refine (concatenate_pair_apply_right (s₁ := S100000x384) (s₂ := S100000x384) (1 : Fin 2) _ _ _ j rfl rfl i
    (fun a ha => match a, ha with | ⟨0, _⟩, _ => h0 | ⟨1, _⟩, ha => absurd rfl ha) h1).trans ?_
  show (FloatOps.addf (agg i) (broadcastInDim S100000x384 ![0, 1] bcast_S1x384_S100000x384_0_1
    (broadcastInDim S1x384 ![1] bcast_S384_S1x384_1 b) i) : Ideal .f32) = _
  rw [broadcastInDim_apply (s := S1x384) (t := S100000x384) ![0, 1] bcast_S1x384_S100000x384_0_1 _ i (ix2 (0 : Fin 1) q)
    (fun a => match a with
      | ⟨0, _⟩ => rfl
      | ⟨1, _⟩ => (show q.val = (i 1).val from hk))]
  rw [broadcastInDim_apply (s := S384) (t := S1x384) ![1] bcast_S384_S1x384_1 b (ix2 (0 : Fin 1) q) (ix1 q)
    (fun a => match a with | ⟨0, _⟩ => rfl)]

theorem leakyConcat_left (j : S100000x768.Idx) (i : S100000x384.Idx) (h0 : (i 0).val = (j 0).val) (h1 : (i 1).val = (j 1).val) :
    leakyConcat x agg b j = leaky (x i) := by
  rw [leakyConcat_apply, joined_left x agg b j i h0 h1]

theorem leakyConcat_right (j : S100000x768.Idx) (i : S100000x384.Idx) (k : S384.Idx) (h0 : (i 0).val = (j 0).val)
    (h1 : (i 1).val + 384 = (j 1).val) (hk : (k 0).val = (i 1).val) :
    leakyConcat x agg b j = leaky (FloatOps.addf (agg i) (b k)) := by
  rw [leakyConcat_apply, joined_right x agg b j i k h0 h1 hk]

end Cert.ReferenceIdeal.Region1

/-! ## The kernel's second region: one point's block, then the whole array -/

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.ReferenceIdeal.Region1 (leaky)

/-- The first store's payload is pointwise: the rectifier of the loaded block. -/
theorem pay1_apply (v0 : Vec Ideal S1000x384 .f32) (y : S1000x384.Idx) : k1_pay1 v0 y = leaky (v0 y) := rfl

/-- The second store's payload at `(p, q)`: the rectifier of the loaded block there plus entry `q` of the bias (the
    bias, reshaped to one row, is broadcast down the 1000 rows). -/
theorem pay2_apply (v1 : Vec Ideal S1000x384 .f32) (v3 : Vec Ideal S384 .f32) (p : Fin 1000) (q : Fin 384) :
    k1_pay2 v1 v3 (ix2 p q) = leaky (FloatOps.addf (v1 (ix2 p q)) (v3 (ix1 q))) := by
  unfold k1_pay2
  show leaky (FloatOps.addf (shapeCast S1000x384 v1 shapeCasts_S1000x384_S1000x384 (ix2 p q))
    (broadcastTo S1000x384 (shapeCast S1x384 v3 shapeCasts_S384_S1x384) broadcasts_S1x384_S1000x384 (ix2 p q))) = _
  rw [shapeCast_self]
  rw [broadcastTo_apply (shapeCast S1x384 v3 shapeCasts_S384_S1x384) broadcasts_S1x384_S1000x384 (ix2 p q) (ix2 (0 : Fin 1) q)
    (fun a => match a with | ⟨0, _⟩ => rfl | ⟨1, _⟩ => rfl)]
  rw [shapeCast_apply v3 shapeCasts_S384_S1x384 (ix2 (0 : Fin 1) q) (ix1 q) (by
    rw [Shape.rowMajor_val_one, Shape.rowMajor_val_two]; show q.val = 0 * 384 + q.val; omega)]

theorem zero_offsets2 : (![0, 0] : Fin 2 → Nat) = fun _ => 0 := funext fun a => by fin_cases a <;> rfl
theorem zero_offsets1 : (![0] : Fin 1 → Nat) = fun _ => 0 := funext fun a => by fin_cases a; rfl

/-- What one point leaves in the output's staging buffer: the two stores fill columns 384..767 and 0..383, so the
    buffer is ANY function of the block index that is, in columns 0..383, the rectifier of the first input block and,
    in columns 384..767, the rectifier of the second block plus the bias. -/
theorem out_eq (x0 x1 : Vec Ideal S1000x384 .f32) (x2 : Vec Ideal S384 .f32) (Gb : S1000x768.Idx → Ideal .f32)
    (hl : ∀ (j : S1000x768.Idx) (i : S1000x384.Idx), (i 0).val = (j 0).val → (i 1).val = (j 1).val → Gb j = leaky (x0 i))
    (hr : ∀ (j : S1000x768.Idx) (i : S1000x384.Idx) (k : S384.Idx), (i 0).val = (j 0).val → (i 1).val + 384 = (j 1).val →
      (k 0).val = (i 1).val → Gb j = leaky (FloatOps.addf (x1 i) (x2 k))) :
    out1_3 x0 x1 x2 = Gb := by
  funext y
  unfold out1_3
  refine View.canon_apply_of_pieces (Val := Elt Ideal) (e := .f32) Gb _ ?_ y (cover1_3 _ _ y)
  intro p hp
  simp only [List.mem_cons, List.not_mem_nil, or_false] at hp
  rcases hp with rfl | rfl
  · intro x
    obtain ⟨a, b, rfl⟩ : ∃ (a : Fin 1000) (b : Fin 384), x = ix2 a b := ⟨x 0, x 1, eq_ix2 x⟩
    show k1_pay2 (View.ld x1 r1_0) (View.ld x2 r1_1) (ix2 a b) = Gb (r1_3.emb (ix2 a b))
    rw [pay2_apply, View.ld_unit_zero (S := S1000x384) zero_offsets2, View.ld_unit_zero (S := S384) zero_offsets1]
    refine (hr _ (ix2 a b) (ix1 b) ?_ ?_ rfl).symm
    · show a.val = 0 + 1 * a.val; omega
    · show b.val + 384 = 384 + 1 * b.val; omega
  · intro x
    obtain ⟨a, b, rfl⟩ : ∃ (a : Fin 1000) (b : Fin 384), x = ix2 a b := ⟨x 0, x 1, eq_ix2 x⟩
    show k1_pay1 (View.ld x0 r1_0) (ix2 a b) = Gb (r1_2.emb (ix2 a b))
    rw [pay1_apply, View.ld_unit_zero (S := S1000x384) zero_offsets2]
    refine (hl _ (ix2 a b) ?_ ?_).symm
    · show a.val = 0 + 1 * a.val; omega
    · show b.val = 0 + 1 * b.val; omega

variable (V : (c : Dev nD) → (b : Ref sig .tc) → Buf (Elt Ideal) ((c : Thread nD τ).loc b))

/-- The printed index maps over the grid: at point `t` the three row-blocked windows sit at block `(t, 0)` and the
    bias at block `0`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- WHAT POINT `t` WRITES BACK is block `t` (rows 1000·t … 1000·t + 999) of any whole-array function `G` that is the
    rectifier of the first array in columns 0..383 and of the second array plus the bias in columns 384..767: the
    input blocks are the same rows of their arrays, and the bias block is the whole bias. -/
theorem flushed_eq (c : Dev nD) (G : S100000x768.Idx → Ideal .f32)
    (HL : ∀ (j : S100000x768.Idx) (i : S100000x384.Idx), (i 0).val = (j 0).val → (i 1).val = (j 1).val →
      G j = leaky (V c main_arg0 i))
    (HR : ∀ (j : S100000x768.Idx) (i : S100000x384.Idx) (k : S384.Idx), (i 0).val = (j 0).val → (i 1).val + 384 = (j 1).val →
      (k 0).val = (i 1).val → G j = leaky (FloatOps.addf (V c main_v43 i) (V c main_arg3 k)))
    (t : Fin cfg1.N) :
    (dat1 (F := Ideal) V c).flushed 3 t = ((cfg1.win 3).blk t).view.read (Elt Ideal) G := by
  show (cfg1.win 3).cut (grid1.coords t) ((dat1 V c).after 3 t) = _
  rw [after1_3]
  obtain ⟨e00, e01, e10, e11, e20, e30, e31⟩ := idx_facts t
  funext y
  show out1_3 (iblk1 V c 0 t) (iblk1 V c 1 t) (iblk1 V c 2 t) y = G (((cfg1.win 3).blk t).view.emb y)
  refine congrFun (out_eq (iblk1 V c 0 t) (iblk1 V c 1 t) (iblk1 V c 2 t) (fun y => G (((cfg1.win 3).blk t).view.emb y)) ?_ ?_) y
  · intro j i h0 h1
    show G (((cfg1.win 3).blk t).view.emb j) = leaky (V c main_arg0 (((cfg1.win 0).blk t).view.emb i))
    refine HL _ _ ?_ ?_
    · show win1_0.index t (0 : Fin 2) * 1000 + 1 * (i 0).val = win1_3.index t (0 : Fin 2) * 1000 + 1 * (j 0).val
      omega
    · show win1_0.index t (1 : Fin 2) * 384 + 1 * (i 1).val = win1_3.index t (1 : Fin 2) * 768 + 1 * (j 1).val
      omega
  · intro j i k h0 h1 hk
    show G (((cfg1.win 3).blk t).view.emb j)
      = leaky (FloatOps.addf (V c main_v43 (((cfg1.win 1).blk t).view.emb i)) (V c main_arg3 (((cfg1.win 2).blk t).view.emb k)))
    refine HR _ _ _ ?_ ?_ ?_
    · show win1_1.index t (0 : Fin 2) * 1000 + 1 * (i 0).val = win1_3.index t (0 : Fin 2) * 1000 + 1 * (j 0).val
      omega
    · show win1_1.index t (1 : Fin 2) * 384 + 1 * (i 1).val + 384 = win1_3.index t (1 : Fin 2) * 768 + 1 * (j 1).val
      omega
    · show win1_2.index t (0 : Fin 1) * 384 + 1 * (k 0).val = win1_1.index t (1 : Fin 2) * 384 + 1 * (i 1).val
      omega

/-- An index of the output array is in point `t`'s block iff each coordinate is in the block's range on its axis. -/
theorem mem_blk (t : Fin cfg1.N) (i : S100000x768.Idx) :
    i ∈ ((cfg1.win 3).blk t).view.set ↔ ∀ a : Fin 2, win1_3.index t a * S1000x768.size a ≤ (i a).val
      ∧ (i a).val < win1_3.index t a * S1000x768.size a + S1000x768.size a := by
  show i ∈ ((View.whole main_v44).slice (win1_3.rect t)).set ↔ _
  rw [View.set_slice_whole, Rect.mem_set_unit]
  exact Iff.rfl

/-- Row `r` of the output array is in the block of point `r / 1000`, which writes back. -/
theorem cover (i : S100000x768.Idx) :
    ∃ t : Fin cfg1.N, (cfg1.win 3).flush t = true ∧ i ∈ ((cfg1.win 3).blk t).view.set := by
  have hi0 : (i 0).val < 100000 := (i 0).isLt
  have hi1 : (i 1).val < 768 := (i 1).isLt
  obtain ⟨t, ht⟩ : ∃ t : Fin cfg1.N, t.val = (i 0).val / 1000 :=
    ⟨⟨(i 0).val / 1000, by rw [show cfg1.N = 100 from N_1]; omega⟩, rfl⟩
  obtain ⟨-, -, -, -, -, e30, e31⟩ := idx_facts t
  refine ⟨t, flush1_3 t, ?_⟩
  rw [mem_blk]
  intro a
  match a with
  | ⟨0, _⟩ =>
    show win1_3.index t (0 : Fin 2) * 1000 ≤ (i 0).val ∧ (i 0).val < win1_3.index t (0 : Fin 2) * 1000 + 1000
    omega
  | ⟨1, _⟩ =>
    show win1_3.index t (1 : Fin 2) * 768 ≤ (i 1).val ∧ (i 1).val < win1_3.index t (1 : Fin 2) * 768 + 768
    omega

end Cert.KernelIdeal.Region1

namespace Cert.KernelIdeal.RegionValue

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- After the second pallas_call its output array holds the leaky rectifier of the input rows beside the aggregated rows plus bias. -/
theorem region1 (c : Dev nD) :
    (dat1 (F := Ideal) V c).arrAt 3 cfg1.N
      = Cert.ReferenceIdeal.RefValue.leakyConcat (V c main_arg0) (V c main_v43) (V c main_arg3) :=
  (dat1 (F := Ideal) V c).arrAt_eq_of_cover 3 _
    (fun t _ => Region1.flushed_eq V c _
      (Cert.ReferenceIdeal.Region1.leakyConcat_left (V c main_arg0) (V c main_v43) (V c main_arg3))
      (Cert.ReferenceIdeal.Region1.leakyConcat_right (V c main_arg0) (V c main_v43) (V c main_arg3)) t)
    Region1.cover

end Cert.KernelIdeal.RegionValue

end
-- ==== Proof.Region2.lean ====
/- The second linear map, region by region: 100 grid points, point t computing rows 1000·t … 1000·t+999 of y·W2
   as the row block's product with the whole of W2. Each stored element is a sum over the 768 contracted
   coordinates; the whole-array product at the same element is the same sum, so the write-backs, whose blocks
   tile the rows, leave the whole product. -/
import proofs.«108951_j53120155517255_1_alg».proof.Proof.Gen.KernelIdeal.Frame
import proofs.«108951_j53120155517255_1_alg».proof.Proof.RefSide
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! The pieces, under a name of their own. -/
namespace Second

/-- The zero offsets of the body's whole-buffer rectangles. -/
theorem zeroOff2 : (![0, 0] : Fin 2 → Nat) = fun _ => 0 := funext fun a => by fin_cases a <;> rfl

/-! ## One block's product at an index -/

theorem blockLhs_0 (j : S1000x384.Idx) (q : dot_S1000x768_S768x384_S1000x384_1_0_0_1_n_n.contr.Idx) :
    (dot_S1000x768_S768x384_S1000x384_1_0_0_1_n_n.lhsIdx j q 0).val = (j 0).val := by
  unfold DotDims.lhsIdx
  rw [dif_neg (show ¬(0 : Fin S1000x768.rank) ∈ dot_S1000x768_S768x384_S1000x384_1_0_0_1_n_n.lhsBatch by decide), dif_pos (show (0 : Fin S1000x768.rank) ∈ dot_S1000x768_S768x384_S1000x384_1_0_0_1_n_n.lhsNonContracting by decide)]
  rfl
theorem blockLhs_1 (j : S1000x384.Idx) (q : dot_S1000x768_S768x384_S1000x384_1_0_0_1_n_n.contr.Idx) :
    (dot_S1000x768_S768x384_S1000x384_1_0_0_1_n_n.lhsIdx j q 1).val = (q ⟨0, by decide⟩).val :=
  dot_S1000x768_S768x384_S1000x384_1_0_0_1_n_n.lhsIdx_val_of_single rfl j q
theorem blockRhs_0 (j : S1000x384.Idx) (q : dot_S1000x768_S768x384_S1000x384_1_0_0_1_n_n.contr.Idx) :
    (dot_S1000x768_S768x384_S1000x384_1_0_0_1_n_n.rhsIdx j q 0).val = (q ⟨0, by decide⟩).val :=
  dot_S1000x768_S768x384_S1000x384_1_0_0_1_n_n.rhsIdx_val_of_single rfl j q
theorem blockRhs_1 (j : S1000x384.Idx) (q : dot_S1000x768_S768x384_S1000x384_1_0_0_1_n_n.contr.Idx) :
    (dot_S1000x768_S768x384_S1000x384_1_0_0_1_n_n.rhsIdx j q 1).val = (j 1).val := by
  unfold DotDims.rhsIdx
  rw [dif_neg (show ¬(1 : Fin S768x384.rank) ∈ dot_S1000x768_S768x384_S1000x384_1_0_0_1_n_n.rhsBatch by decide), dif_pos (show (1 : Fin S768x384.rank) ∈ dot_S1000x768_S768x384_S1000x384_1_0_0_1_n_n.rhsNonContracting by decide)]
  rfl

/-- Row `j 0`, column `k` of a 1000×768 block. -/
abbrev blockRow (j : S1000x384.Idx) (k : Fin 768) : S1000x768.Idx := fun a => match a with
  | ⟨0, _⟩ => ⟨(j 0).val, (j 0).isLt⟩
  | ⟨1, _⟩ => ⟨k.val, k.isLt⟩
/-- Row `k`, column `j 1` of the 768×384 weights. -/
abbrev weightCol (j : S1000x384.Idx) (k : Fin 768) : S768x384.Idx := fun a => match a with
  | ⟨0, _⟩ => ⟨k.val, k.isLt⟩
  | ⟨1, _⟩ => ⟨(j 1).val, (j 1).isLt⟩

/-- The body's stored value at an index: the row of the block against the column of the weights. -/
theorem blockProduct_apply (x : Vec Ideal S1000x768 .f32) (w : Vec Ideal S768x384 .f32) (j : S1000x384.Idx) :
    k2_pay1 (F := Ideal) x w j = ∑ k : Fin 768, x (blockRow j k) * w (weightCol j k) := by
  unfold k2_pay1
  simp only [shapeCast_self]
  refine (Ideal.matmul_constant_zero_apply dot_S1000x768_S768x384_S1000x384_1_0_0_1_n_n none _ _ j).trans ?_
  rw [← Equiv.sum_comp (ValueIdx.contrEquiv1 dot_S1000x768_S768x384_S1000x384_1_0_0_1_n_n 768 rfl rfl).symm]
  refine Finset.sum_congr rfl fun k _ => ?_
  have hk := ValueIdx.contrEquiv1_symm_val dot_S1000x768_S768x384_S1000x384_1_0_0_1_n_n 768 rfl rfl k
  have el : dot_S1000x768_S768x384_S1000x384_1_0_0_1_n_n.lhsIdx j ((ValueIdx.contrEquiv1 dot_S1000x768_S768x384_S1000x384_1_0_0_1_n_n 768 rfl rfl).symm k) = blockRow j k := funext fun a => Fin.ext (by
    match a with
    | ⟨0, _⟩ => exact blockLhs_0 _ _
    | ⟨1, _⟩ => exact (blockLhs_1 _ _).trans hk)
  have er : dot_S1000x768_S768x384_S1000x384_1_0_0_1_n_n.rhsIdx j ((ValueIdx.contrEquiv1 dot_S1000x768_S768x384_S1000x384_1_0_0_1_n_n 768 rfl rfl).symm k) = weightCol j k := funext fun a => Fin.ext (by
    match a with
    | ⟨0, _⟩ => exact (blockRhs_0 _ _).trans hk
    | ⟨1, _⟩ => exact blockRhs_1 _ _)
  show x _ * w _ = _
  rw [el, er]

/-! ## The whole product at an index -/

theorem wholeLhs_0 (i : Cert.ReferenceIdeal.S100000x384.Idx) (q : Cert.ReferenceIdeal.dot_S100000x768_S768x384_S100000x384_1_0_0_1_n_n.contr.Idx) :
    (Cert.ReferenceIdeal.dot_S100000x768_S768x384_S100000x384_1_0_0_1_n_n.lhsIdx i q 0).val = (i 0).val := by
  unfold DotDims.lhsIdx
  rw [dif_neg (show ¬(0 : Fin Cert.ReferenceIdeal.S100000x768.rank) ∈ Cert.ReferenceIdeal.dot_S100000x768_S768x384_S100000x384_1_0_0_1_n_n.lhsBatch by decide), dif_pos (show (0 : Fin Cert.ReferenceIdeal.S100000x768.rank) ∈ Cert.ReferenceIdeal.dot_S100000x768_S768x384_S100000x384_1_0_0_1_n_n.lhsNonContracting by decide)]
  rfl
theorem wholeLhs_1 (i : Cert.ReferenceIdeal.S100000x384.Idx) (q : Cert.ReferenceIdeal.dot_S100000x768_S768x384_S100000x384_1_0_0_1_n_n.contr.Idx) :
    (Cert.ReferenceIdeal.dot_S100000x768_S768x384_S100000x384_1_0_0_1_n_n.lhsIdx i q 1).val = (q ⟨0, by decide⟩).val :=
  Cert.ReferenceIdeal.dot_S100000x768_S768x384_S100000x384_1_0_0_1_n_n.lhsIdx_val_of_single rfl i q
theorem wholeRhs_0 (i : Cert.ReferenceIdeal.S100000x384.Idx) (q : Cert.ReferenceIdeal.dot_S100000x768_S768x384_S100000x384_1_0_0_1_n_n.contr.Idx) :
    (Cert.ReferenceIdeal.dot_S100000x768_S768x384_S100000x384_1_0_0_1_n_n.rhsIdx i q 0).val = (q ⟨0, by decide⟩).val :=
  Cert.ReferenceIdeal.dot_S100000x768_S768x384_S100000x384_1_0_0_1_n_n.rhsIdx_val_of_single rfl i q
theorem wholeRhs_1 (i : Cert.ReferenceIdeal.S100000x384.Idx) (q : Cert.ReferenceIdeal.dot_S100000x768_S768x384_S100000x384_1_0_0_1_n_n.contr.Idx) :
    (Cert.ReferenceIdeal.dot_S100000x768_S768x384_S100000x384_1_0_0_1_n_n.rhsIdx i q 1).val = (i 1).val := by
  unfold DotDims.rhsIdx
  rw [dif_neg (show ¬(1 : Fin Cert.ReferenceIdeal.S768x384.rank) ∈ Cert.ReferenceIdeal.dot_S100000x768_S768x384_S100000x384_1_0_0_1_n_n.rhsBatch by decide), dif_pos (show (1 : Fin Cert.ReferenceIdeal.S768x384.rank) ∈ Cert.ReferenceIdeal.dot_S100000x768_S768x384_S100000x384_1_0_0_1_n_n.rhsNonContracting by decide)]
  rfl

/-- Row `i 0`, column `k` of the 100000×768 array. -/
abbrev wholeRow (i : S100000x384.Idx) (k : Fin 768) : S100000x768.Idx := fun a => match a with
  | ⟨0, _⟩ => ⟨(i 0).val, (i 0).isLt⟩
  | ⟨1, _⟩ => ⟨k.val, k.isLt⟩
/-- Row `k`, column `i 1` of the weights. -/
abbrev wholeCol (i : S100000x384.Idx) (k : Fin 768) : S768x384.Idx := fun a => match a with
  | ⟨0, _⟩ => ⟨k.val, k.isLt⟩
  | ⟨1, _⟩ => ⟨(i 1).val, (i 1).isLt⟩

/-- The whole-array product at an index: row `i 0` of the left array against column `i 1` of the weights. -/
theorem wholeProduct_apply (y : (⟨S100000x768, .f32⟩ : BufTy).Contents (Elt Ideal)) (w : (⟨S768x384, .f32⟩ : BufTy).Contents (Elt Ideal)) (i : S100000x384.Idx) :
    Cert.ReferenceIdeal.RefValue.secondLinear y w i = ∑ k : Fin 768, y (wholeRow i k) * w (wholeCol i k) := by
  unfold Cert.ReferenceIdeal.RefValue.secondLinear
  simp only [Host.dotGeneral]
  rw [Ideal.dotGeneral_apply, ← Equiv.sum_comp (ValueIdx.contrEquiv1 Cert.ReferenceIdeal.dot_S100000x768_S768x384_S100000x384_1_0_0_1_n_n 768 rfl rfl).symm]
  refine Finset.sum_congr rfl fun k _ => ?_
  have hk := ValueIdx.contrEquiv1_symm_val Cert.ReferenceIdeal.dot_S100000x768_S768x384_S100000x384_1_0_0_1_n_n 768 rfl rfl k
  have el : Cert.ReferenceIdeal.dot_S100000x768_S768x384_S100000x384_1_0_0_1_n_n.lhsIdx i ((ValueIdx.contrEquiv1 Cert.ReferenceIdeal.dot_S100000x768_S768x384_S100000x384_1_0_0_1_n_n 768 rfl rfl).symm k) = wholeRow i k := funext fun a => Fin.ext (by
    match a with
    | ⟨0, _⟩ => exact wholeLhs_0 _ _
    | ⟨1, _⟩ => exact (wholeLhs_1 _ _).trans hk)
  have er : Cert.ReferenceIdeal.dot_S100000x768_S768x384_S100000x384_1_0_0_1_n_n.rhsIdx i ((ValueIdx.contrEquiv1 Cert.ReferenceIdeal.dot_S100000x768_S768x384_S100000x384_1_0_0_1_n_n 768 rfl rfl).symm k) = wholeCol i k := funext fun a => Fin.ext (by
    match a with
    | ⟨0, _⟩ => exact (wholeRhs_0 _ _).trans hk
    | ⟨1, _⟩ => exact wholeRhs_1 _ _)
  rw [el, er]

/-! ## The blocks of a point -/

/-- The printed index maps over the grid: point `t` takes row block `t` of the left array and of the result,
    and the whole of the weights. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Point `t`'s block of the left array is its rows `1000·t … 1000·t + 999`. -/
theorem leftBlock_apply (c : Dev nD) (t : Fin cfg2.N) (x : S1000x768.Idx) (i : S100000x768.Idx)
    (h0 : (i 0).val = t.val * 1000 + (x 0).val) (h1 : (i 1).val = (x 1).val) :
    (iblk2 V c 0 t : Vec Ideal S1000x768 .f32) x = (V c main_v44 : S100000x768.Idx → Elt Ideal .f32) i := by
  obtain ⟨e0, e1, -, -, -, -⟩ := blockIndex2 t
  unfold iblk2
  rw [View.read_apply]
  show V c main_v44 _ = V c main_v44 _
  congr 1
  funext a
  apply Fin.ext
  match a with
  | ⟨0, _⟩ => show win2_0.index t (0 : Fin 2) * 1000 + 1 * (x 0).val = (i 0).val; rw [e0, h0]; omega
  | ⟨1, _⟩ => show win2_0.index t (1 : Fin 2) * 768 + 1 * (x 1).val = (i 1).val; rw [e1, h1]; omega

/-- Every point's block of the weights is the weights. -/
theorem weightBlock_apply (c : Dev nD) (t : Fin cfg2.N) (x : S768x384.Idx) :
    (iblk2 V c 1 t : Vec Ideal S768x384 .f32) x = (V c main_arg4 : S768x384.Idx → Elt Ideal .f32) x := by
  obtain ⟨-, -, e2, e3, -, -⟩ := blockIndex2 t
  unfold iblk2
  rw [View.read_apply]
  show V c main_arg4 _ = V c main_arg4 _
  congr 1
  funext a
  apply Fin.ext
  match a with
  | ⟨0, _⟩ => show win2_1.index t (0 : Fin 2) * 768 + 1 * (x 0).val = (x 0).val; rw [e2]; omega
  | ⟨1, _⟩ => show win2_1.index t (1 : Fin 2) * 384 + 1 * (x 1).val = (x 1).val; rw [e3]; omega

/-! ## From the blocks to the array -/

/-- The product of the two arrays the region reads. -/
abbrev product2 (c : Dev nD) : (⟨S100000x384, .f32⟩ : BufTy).Contents (Elt Ideal) :=
  Cert.ReferenceIdeal.RefValue.secondLinear (V c main_v44) (V c main_arg4)

/-- What point `t` writes back is block `t` of the product: rows `1000·t … 1000·t + 999`. -/
theorem flushed2_eq (c : Dev nD) (t : Fin cfg2.N) :
    (dat2 (F := Ideal) V c).flushed 2 t = ((cfg2.win 2).blk t).view.read (Elt Ideal) (product2 V c) := by
  show (cfg2.win 2).cut (grid2.coords t) ((dat2 (F := Ideal) V c).after 2 t) = _
  rw [after2_2]
  unfold out2_2
  rw [View.canon_unit_zero zeroOff2]
  simp only [View.ld_unit_zero (S := S1000x768) zeroOff2, View.ld_unit_zero (S := S768x384) zeroOff2]
  obtain ⟨-, -, -, -, e4, e5⟩ := blockIndex2 t
  funext j
  show k2_pay1 (F := Ideal) (iblk2 V c 0 t) (iblk2 V c 1 t) j = product2 V c (((cfg2.win 2).blk t).view.emb j)
  refine (blockProduct_apply (iblk2 V c 0 t) (iblk2 V c 1 t) j).trans ?_
  refine Eq.trans ?_ (wholeProduct_apply (V c main_v44) (V c main_arg4) (((cfg2.win 2).blk t).view.emb j)).symm
  refine Finset.sum_congr rfl fun k _ => ?_
  have hl : (iblk2 V c 0 t : Vec Ideal S1000x768 .f32) (blockRow j k)
      = (V c main_v44 : S100000x768.Idx → Elt Ideal .f32) (wholeRow (((cfg2.win 2).blk t).view.emb j) k) := by
    refine leftBlock_apply V c t (blockRow j k) _ ?_ ?_
    · show ((((cfg2.win 2).blk t).view.emb j) 0).val = t.val * 1000 + (j 0).val
      show win2_2.index t (0 : Fin 2) * 1000 + 1 * (j 0).val = t.val * 1000 + (j 0).val
      rw [e4]; omega
    · rfl
  have hr : (iblk2 V c 1 t : Vec Ideal S768x384 .f32) (weightCol j k)
      = (V c main_arg4 : S768x384.Idx → Elt Ideal .f32) (wholeCol (((cfg2.win 2).blk t).view.emb j) k) := by
    refine (weightBlock_apply V c t (weightCol j k)).trans ?_
    congr 1
    funext a
    apply Fin.ext
    match a with
    | ⟨0, _⟩ => rfl
    | ⟨1, _⟩ => show (j 1).val = win2_2.index t (1 : Fin 2) * 384 + 1 * (j 1).val; rw [e5]; omega
  rw [hl, hr]

/-- An index of the result array is in point `t`'s block iff each coordinate is in the block's range on its axis. -/
theorem mem_block2 (t : Fin cfg2.N) (i : S100000x384.Idx) :
    i ∈ ((cfg2.win 2).blk t).view.set ↔ ∀ a : Fin 2, win2_2.index t a * S1000x384.size a ≤ (i a).val ∧ (i a).val < win2_2.index t a * S1000x384.size a + S1000x384.size a := by
  show i ∈ ((View.whole main_v45).slice (win2_2.rect t)).set ↔ _
  rw [View.set_slice_whole, Rect.mem_set_unit]
  exact Iff.rfl

/-- Row `r` of the result lies in the block of point `r / 1000`, and every point writes its block back. -/
theorem covered2 (i : S100000x384.Idx) :
    ∃ t : Fin cfg2.N, (cfg2.win 2).flush t = true ∧ i ∈ ((cfg2.win 2).blk t).view.set := by
  have hi0 : (i 0).val < 100000 := (i 0).isLt
  have hi1 : (i 1).val < 384 := (i 1).isLt
  have hN : cfg2.N = 100 := N_2
  let t : Fin cfg2.N := ⟨(i 0).val / 1000, by rw [hN]; omega⟩
  obtain ⟨-, -, -, -, e4, e5⟩ := blockIndex2 t
  have ht : t.val = (i 0).val / 1000 := rfl
  refine ⟨t, flush2_2 t, ?_⟩
  rw [mem_block2]
  intro a
  match a with
  | ⟨0, _⟩ => show win2_2.index t (0 : Fin 2) * 1000 ≤ (i 0).val ∧ (i 0).val < win2_2.index t (0 : Fin 2) * 1000 + 1000; rw [e4, ht]; omega
  | ⟨1, _⟩ => show win2_2.index t (1 : Fin 2) * 384 ≤ (i 1).val ∧ (i 1).val < win2_2.index t (1 : Fin 2) * 384 + 384; rw [e5]; omega

end Second

/-- After the third pallas_call its output array holds the whole product of the two arrays it read. -/
theorem region2 (c : Dev nD) :
    (dat2 (F := Ideal) V c).arrAt 2 cfg2.N
      = Cert.ReferenceIdeal.RefValue.secondLinear (V c main_v44) (V c main_arg4) :=
  (dat2 (F := Ideal) V c).arrAt_eq_of_cover 2 (Second.product2 V c) (fun t _ => Second.flushed2_eq V c t) Second.covered2

end Cert.KernelIdeal.RegionValue

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Region3.lean ====
/- The second layer's output and its pooled score, region by region. -/
import proofs.«108951_j53120155517255_1_alg».proof.Proof.Gen.KernelIdeal.Frame
import proofs.«108951_j53120155517255_1_alg».proof.Proof.RefSide
import proofs.«108951_j53120155517255_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

/-- The leaky rectifier on one element: the element where it is at least zero, the float nearest 0.01 times it
    elsewhere. -/
def leaky (x : Ideal .f32) : Ideal .f32 :=
  Scalar.select (FloatOps.cmpf .oge x (FloatOps.ofBits .f32 0x00000000#32)) x
    (FloatOps.mulf (FloatOps.ofBits .f32 0x3C23D70A#32) x)

/-- The bias vector laid along a row, read at a column, is the bias at that column. -/
theorem biasRow_apply (v2 : Vec Ideal S384 .f32) (p : Fin 1000) (k : Fin 384) :
    broadcastTo S1000x384 (shapeCast S1x384 v2 shapeCasts_S384_S1x384) broadcasts_S1x384_S1000x384 (ix2 p k) = v2 (ix1 k) :=
  (broadcastTo_1b_ab_apply _ _ p k).trans (shapeCast_a_1a_apply v2 _ 0 k)

/-- The first stored value at row `p`, column `k`: the leaky rectifier of the block's entry plus the bias of the column. -/
theorem pay1_apply (v0 : Vec Ideal S1000x384 .f32) (v2 : Vec Ideal S384 .f32) (p : Fin 1000) (k : Fin 384) :
    k3_pay1 (F := Ideal) v0 v2 (ix2 p k) = leaky (v0 (ix2 p k) + v2 (ix1 k)) := by
  have e1 : shapeCast S1000x384 v0 shapeCasts_S1000x384_S1000x384 = v0 := shapeCast_self v0 _
  have e4 := biasRow_apply v2 p k
  unfold k3_pay1
  show leaky (shapeCast S1000x384 v0 shapeCasts_S1000x384_S1000x384 (ix2 p k)
    + broadcastTo S1000x384 (shapeCast S1x384 v2 shapeCasts_S384_S1x384) broadcasts_S1x384_S1000x384 (ix2 p k)) = _
  rw [e1, e4]

/-- A lane sum of a block, read at row `p`, is the sum over the row's 384 entries. -/
theorem laneSum_apply (x : FVec Ideal S1000x384 .f32) (hφ : FKind.Formats FTy.f32)
    (hacc : (0x00000000#32 : BitVec FTy.f32.bits) = FKind.add.neutral .f32 hφ) (p : Fin 1000) :
    multiReduction .add [1] S1000 x 0x00000000#32 reduces_S1000x384_S1000 hφ hacc (ix1 p) = ∑ k : Fin 384, x (ix2 p k) := by
  refine (Ideal.multiReduction_add_single x 0x00000000#32 reduces_S1000x384_S1000 hφ hacc (ix1 p)).trans ?_
  show ∑ k : Fin 384, x (reduces_S1000x384_S1000.lift (ix1 p) k) = _
  refine Finset.sum_congr rfl fun k _ => congrArg x ?_
  funext a
  match a with
  | ⟨0, _⟩ => rfl
  | ⟨1, _⟩ => rfl

/-- The second stored value is the lane sum of the first times the pooling row, kept as a column, plus the pooling bias. -/
theorem pay2_eq (v0 : Vec Ideal S1000x384 .f32) (v2 : Vec Ideal S384 .f32) (v12 : Vec Ideal S1x384 .f32) (v18 : Vec Ideal S1 .f32) :
    k3_pay2 (F := Ideal) v0 v2 v12 v18
      = addf (shapeCast S1000x1 (multiReduction .add [1] S1000
            (mulf (k3_pay1 (F := Ideal) v0 v2) (broadcastTo S1000x384 (shapeCast S1x384 v12 shapeCasts_S1x384_S1x384) broadcasts_S1x384_S1000x384))
            0x00000000#32 reduces_S1000x384_S1000 (.inl rfl) rfl) shapeCasts_S1000_S1000x1)
          (broadcastTo S1000x1 (shapeCast S1x1 v18 shapeCasts_S1_S1x1) broadcasts_S1x1_S1000x1) := rfl

/-- At row `p` it is the sum over the columns of the first stored value times the pooling row's entry, plus the bias. -/
theorem pay2_apply (v0 : Vec Ideal S1000x384 .f32) (v2 : Vec Ideal S384 .f32) (v12 : Vec Ideal S1x384 .f32) (v18 : Vec Ideal S1 .f32)
    (p : Fin 1000) (u : Fin 1) :
    k3_pay2 (F := Ideal) v0 v2 v12 v18 (ix2 p u)
      = (∑ k : Fin 384, leaky (v0 (ix2 p k) + v2 (ix1 k)) * v12 (ix2 (0 : Fin 1) k)) + v18 (ix1 (0 : Fin 1)) := by
  have e13 : shapeCast S1x384 v12 shapeCasts_S1x384_S1x384 = v12 := shapeCast_self v12 _
  rw [pay2_eq, addf_apply, e13]
  refine congrArg₂ (· + ·) ?_ ?_
  · refine (Cert.LibColumn.shapeCast_a_a1_apply _ shapeCasts_S1000_S1000x1 p u).trans ?_
    refine (laneSum_apply _ _ _ p).trans ?_
    refine Finset.sum_congr rfl fun k _ => ?_
    rw [mulf_apply, pay1_apply]
    exact congrArg (_ * ·) (broadcastTo_1b_ab_apply v12 broadcasts_S1x384_S1000x384 p k)
  · refine (broadcastTo_1b_ab_apply _ broadcasts_S1x1_S1000x1 p u).trans ?_
    have hu : u = 0 := Subsingleton.elim _ _
    subst hu
    exact shapeCast_a_1a_apply v18 shapeCasts_S1_S1x1 0 0

/-! ## From blocks to arrays -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the row-blocked windows are at block (t, 0) at point t, the small operands at block 0. -/
theorem idx_facts : ∀ t : Fin cfg3.N,
    win3_0.index t (0 : Fin 2) = t.val ∧ win3_0.index t (1 : Fin 2) = 0
    ∧ win3_1.index t (0 : Fin 1) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Point t's block of the aggregated rows is rows 1000 t … 1000 t + 999 of the array. -/
theorem aggBlk_apply (c : Dev nD) (t : Fin cfg3.N) (y : S1000x384.Idx) (i : S100000x384.Idx)
    (h0 : (i 0).val = t.val * 1000 + (y 0).val) (h1 : (i 1).val = (y 1).val) :
    (iblk3 V c 0 t : Vec Ideal S1000x384 .f32) y = (V c main_v58 : S100000x384.Idx → Ideal .f32) i := by
  obtain ⟨e0, e1, -⟩ := idx_facts t
  unfold iblk3
  rw [View.read_apply]
  show V c main_v58 _ = V c main_v58 _
  congr 1
  funext a; apply Fin.ext
  match a with
  | ⟨0, _⟩ => show win3_0.index t (0 : Fin 2) * 1000 + 1 * (y 0).val = (i 0).val; rw [e0, h0]; omega
  | ⟨1, _⟩ => show win3_0.index t (1 : Fin 2) * 384 + 1 * (y 1).val = (i 1).val; rw [e1, h1]; omega

/-- The bias operand's block is the whole bias vector at every point. -/
theorem biasBlk_eq (c : Dev nD) (t : Fin cfg3.N) :
    (iblk3 V c 1 t : Vec Ideal S384 .f32) = (V c main_arg5 : S384.Idx → Ideal .f32) := by
  obtain ⟨-, -, e, -⟩ := idx_facts t
  funext y
  unfold iblk3
  rw [View.read_apply]
  show V c main_arg5 _ = V c main_arg5 _
  congr 1
  funext a; apply Fin.ext
  match a with
  | ⟨0, _⟩ => show win3_1.index t (0 : Fin 1) * 384 + 1 * (y 0).val = (y 0).val; rw [e]; omega

/-- The pooling row's block is the whole row at every point. -/
theorem rowBlk_eq (c : Dev nD) (t : Fin cfg3.N) :
    (iblk3 V c 2 t : Vec Ideal S1x384 .f32) = (V c main_v59 : S1x384.Idx → Ideal .f32) := by
  obtain ⟨-, -, -, e0, e1, -⟩ := idx_facts t
  funext y
  unfold iblk3
  rw [View.read_apply]
  show V c main_v59 _ = V c main_v59 _
  congr 1
  funext a; apply Fin.ext
  match a with
  | ⟨0, _⟩ => show win3_2.index t (0 : Fin 2) * 1 + 1 * (y 0).val = (y 0).val; rw [e0]; omega
  | ⟨1, _⟩ => show win3_2.index t (1 : Fin 2) * 384 + 1 * (y 1).val = (y 1).val; rw [e1]; omega

/-- The pooling bias's block is the whole one-element vector at every point. -/
theorem bpBlk_eq (c : Dev nD) (t : Fin cfg3.N) :
    (iblk3 V c 3 t : Vec Ideal S1 .f32) = (V c main_arg7 : S1.Idx → Ideal .f32) := by
  obtain ⟨-, -, -, -, -, e, -⟩ := idx_facts t
  funext y
  unfold iblk3
  rw [View.read_apply]
  show V c main_arg7 _ = V c main_arg7 _
  congr 1
  funext a; apply Fin.ext
  match a with
  | ⟨0, _⟩ => show win3_3.index t (0 : Fin 1) * 1 + 1 * (y 0).val = (y 0).val; rw [e]; omega

/-- The first result as one function of the aggregated rows and the bias: entry (r, k) is the leaky rectifier of the
    aggregated entry plus the bias of column k. -/
def outZ (agg : S100000x384.Idx → Ideal .f32) (b : S384.Idx → Ideal .f32) : S100000x384.Idx → Ideal .f32 :=
  fun i => leaky (agg i + b (ix1 (⟨(i 1).val, idx2_lt1 i⟩ : Fin 384)))

/-- The first stored value at any index of the block. -/
theorem pay1_at (v0 : Vec Ideal S1000x384 .f32) (v2 : Vec Ideal S384 .f32) (j : S1000x384.Idx) :
    k3_pay1 (F := Ideal) v0 v2 j = leaky (v0 j + v2 (ix1 (⟨(j 1).val, idx2_lt1 j⟩ : Fin 384))) := by
  have hj : j = ix2 (⟨(j 0).val, idx2_lt0 j⟩ : Fin 1000) (⟨(j 1).val, idx2_lt1 j⟩ : Fin 384) := by
    funext a
    match a with
    | ⟨0, _⟩ => rfl
    | ⟨1, _⟩ => rfl
  exact (congrArg (k3_pay1 (F := Ideal) v0 v2) hj).trans ((pay1_apply v0 v2 _ _).trans (by rw [← hj]))

/-- What point t stores for the first result, at block index y, is `outZ` at the array index the block index names. -/
theorem zBlock_apply (c : Dev nD) (t : Fin cfg3.N) (y : S1000x384.Idx) (i : S100000x384.Idx)
    (h0 : (i 0).val = t.val * 1000 + (y 0).val) (h1 : (i 1).val = (y 1).val) :
    k3_pay1 (F := Ideal) (iblk3 V c 0 t) (iblk3 V c 1 t) y = outZ (V c main_v58) (V c main_arg5) i := by
  refine (pay1_at (iblk3 V c 0 t) (iblk3 V c 1 t) y).trans ?_
  unfold outZ
  rw [aggBlk_apply V c t y i h0 h1, biasBlk_eq V c t]
  have e : (⟨(y 1).val, idx2_lt1 y⟩ : Fin 384) = ⟨(i 1).val, idx2_lt1 i⟩ := Fin.ext h1.symm
  rw [e]

/-- What point t writes back to the first result's array is block t of `outZ`. -/
theorem flushed4_eq (c : Dev nD) (t : Fin cfg3.N) :
    (dat3 V c).flushed 4 t = ((cfg3.win 4).blk t).view.read (Elt Ideal) (outZ (V c main_v58) (V c main_arg5)) := by
  show (cfg3.win 4).cut (grid3.coords t) ((dat3 V c).after 4 t) = _
  rw [after3_4]
  unfold out3_4
  rw [View.canon_unit_zero hz2]
  simp only [View.ld_unit_zero (S := S1000x384) hz2, View.ld_unit_zero (S := S384) hz1]
  obtain ⟨-, -, -, -, -, -, e0, e1, -⟩ := idx_facts t
  funext j
  show k3_pay1 (F := Ideal) (iblk3 V c 0 t) (iblk3 V c 1 t) j
    = outZ (V c main_v58) (V c main_arg5) (((cfg3.win 4).blk t).view.emb j)
  refine zBlock_apply V c t j _ ?_ ?_
  · show win3_4.index t (0 : Fin 2) * 1000 + 1 * (j 0).val = t.val * 1000 + (j 0).val
    rw [e0]; omega
  · show win3_4.index t (1 : Fin 2) * 384 + 1 * (j 1).val = (j 1).val
    rw [e1]; omega

/-- An index of the first result's array is in point t's block iff each coordinate is in the block's range. -/
theorem mem_blk4 (t : Fin cfg3.N) (i : S100000x384.Idx) :
    i ∈ ((cfg3.win 4).blk t).view.set ↔ ∀ a : Fin 2, win3_4.index t a * S1000x384.size a ≤ (i a).val ∧ (i a).val < win3_4.index t a * S1000x384.size a + S1000x384.size a := by
  show i ∈ ((View.whole main_v60_0).slice (win3_4.rect t)).set ↔ _
  rw [View.set_slice_whole, Rect.mem_set_unit]
  exact Iff.rfl

/-- Row r of the first result is written by point r / 1000. -/
theorem cover4 (i : S100000x384.Idx) :
    ∃ t : Fin cfg3.N, (cfg3.win 4).flush t = true ∧ i ∈ ((cfg3.win 4).blk t).view.set := by
  have hi0 : (i 0).val < 100000 := idx2_lt0 i
  have hi1 : (i 1).val < 384 := idx2_lt1 i
  have hN : grid3.N = 100 := N_3
  have ht : (i 0).val / 1000 < cfg3.N := by show (i 0).val / 1000 < grid3.N; rw [hN]; omega
  obtain ⟨-, -, -, -, -, -, e0, e1, -⟩ := idx_facts ⟨(i 0).val / 1000, ht⟩
  refine ⟨⟨(i 0).val / 1000, ht⟩, flush3_4 _, ?_⟩
  rw [mem_blk4]
  intro a
  match a with
  | ⟨0, _⟩ =>
    show win3_4.index ⟨(i 0).val / 1000, ht⟩ (0 : Fin 2) * 1000 ≤ (i 0).val ∧ (i 0).val < win3_4.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win3_4.index ⟨(i 0).val / 1000, ht⟩ (1 : Fin 2) * 384 ≤ (i 1).val ∧ (i 1).val < win3_4.index ⟨(i 0).val / 1000, ht⟩ (1 : Fin 2) * 384 + 384
    rw [e1]; omega

/-- After all the points the first result's array is `outZ` of the aggregated rows and the bias. -/
theorem final4 (c : Dev nD) : (dat3 V c).arrAt 4 cfg3.N = outZ (V c main_v58) (V c main_arg5) :=
  (dat3 V c).arrAt_eq_of_cover 4 (outZ (V c main_v58) (V c main_arg5)) (fun t _ => flushed4_eq V c t) cover4

/-! ## The pooled score -/

/-- The second result as one function of the aggregated rows, the bias, the pooling row and the pooling bias: entry
    (r, 0) is the sum over the columns of the first result's row r times the pooling row's entry, plus the pooling bias. -/
def outA (agg : S100000x384.Idx → Ideal .f32) (b : S384.Idx → Ideal .f32) (row : S1x384.Idx → Ideal .f32)
    (bp : S1.Idx → Ideal .f32) : S100000x1.Idx → Ideal .f32 :=
  fun i => (∑ k : Fin 384, outZ agg b (ix2 (⟨(i 0).val, idx2_lt0 i⟩ : Fin 100000) k) * row (ix2 (0 : Fin 1) k)) + bp (ix1 (0 : Fin 1))

/-- The second stored value at any index of the block. -/
theorem pay2_at (v0 : Vec Ideal S1000x384 .f32) (v2 : Vec Ideal S384 .f32) (v12 : Vec Ideal S1x384 .f32) (v18 : Vec Ideal S1 .f32)
    (j : S1000x1.Idx) :
    k3_pay2 (F := Ideal) v0 v2 v12 v18 j
      = (∑ k : Fin 384, leaky (v0 (ix2 (⟨(j 0).val, idx2_lt0 j⟩ : Fin 1000) k) + v2 (ix1 k)) * v12 (ix2 (0 : Fin 1) k)) + v18 (ix1 (0 : Fin 1)) := by
  have hj : j = ix2 (⟨(j 0).val, idx2_lt0 j⟩ : Fin 1000) (⟨(j 1).val, idx2_lt1 j⟩ : Fin 1) := by
    funext a
    match a with
    | ⟨0, _⟩ => rfl
    | ⟨1, _⟩ => rfl
  exact (congrArg (k3_pay2 (F := Ideal) v0 v2 v12 v18) hj).trans (pay2_apply v0 v2 v12 v18 _ _)

/-- What point t stores for the second result, at block index y, is `outA` at the array index the block index names. -/
theorem aBlock_apply (c : Dev nD) (t : Fin cfg3.N) (y : S1000x1.Idx) (i : S100000x1.Idx)
    (h0 : (i 0).val = t.val * 1000 + (y 0).val) :
    k3_pay2 (F := Ideal) (iblk3 V c 0 t) (iblk3 V c 1 t) (iblk3 V c 2 t) (iblk3 V c 3 t) y
      = outA (V c main_v58) (V c main_arg5) (V c main_v59) (V c main_arg7) i := by
  refine (pay2_at (iblk3 V c 0 t) (iblk3 V c 1 t) (iblk3 V c 2 t) (iblk3 V c 3 t) y).trans ?_
  unfold outA outZ
  rw [biasBlk_eq V c t, rowBlk_eq V c t, bpBlk_eq V c t]
  refine congrArg (· + _) (Finset.sum_congr rfl fun k _ => ?_)
  rw [aggBlk_apply V c t (ix2 (⟨(y 0).val, idx2_lt0 y⟩ : Fin 1000) k) (ix2 (⟨(i 0).val, idx2_lt0 i⟩ : Fin 100000) k) h0 rfl]

/-- What point t writes back to the second result's array is block t of `outA`. -/
theorem flushed5_eq (c : Dev nD) (t : Fin cfg3.N) :
    (dat3 V c).flushed 5 t
      = ((cfg3.win 5).blk t).view.read (Elt Ideal) (outA (V c main_v58) (V c main_arg5) (V c main_v59) (V c main_arg7)) := by
  show (cfg3.win 5).cut (grid3.coords t) ((dat3 V c).after 5 t) = _
  rw [after3_5]
  unfold out3_5
  rw [View.canon_unit_zero hz2]
  simp only [View.ld_unit_zero (S := S1000x384) hz2, View.ld_unit_zero (S := S384) hz1,
    View.ld_unit_zero (S := S1x384) hz2, View.ld_unit_zero (S := S1) hz1]
  obtain ⟨-, -, -, -, -, -, -, -, e0, -⟩ := idx_facts t
  funext j
  show k3_pay2 (F := Ideal) (iblk3 V c 0 t) (iblk3 V c 1 t) (iblk3 V c 2 t) (iblk3 V c 3 t) j
    = outA (V c main_v58) (V c main_arg5) (V c main_v59) (V c main_arg7) (((cfg3.win 5).blk t).view.emb j)
  refine aBlock_apply V c t j _ ?_
  show win3_5.index t (0 : Fin 2) * 1000 + 1 * (j 0).val = t.val * 1000 + (j 0).val
  rw [e0]; omega

/-- An index of the second result's array is in point t's block iff each coordinate is in the block's range. -/
theorem mem_blk5 (t : Fin cfg3.N) (i : S100000x1.Idx) :
    i ∈ ((cfg3.win 5).blk t).view.set ↔ ∀ a : Fin 2, win3_5.index t a * S1000x1.size a ≤ (i a).val ∧ (i a).val < win3_5.index t a * S1000x1.size a + S1000x1.size a := by
  show i ∈ ((View.whole main_v60_1).slice (win3_5.rect t)).set ↔ _
  rw [View.set_slice_whole, Rect.mem_set_unit]
  exact Iff.rfl

/-- Row r of the second result is written by point r / 1000. -/
theorem cover5 (i : S100000x1.Idx) :
    ∃ t : Fin cfg3.N, (cfg3.win 5).flush t = true ∧ i ∈ ((cfg3.win 5).blk t).view.set := by
  have hi0 : (i 0).val < 100000 := idx2_lt0 i
  have hi1 : (i 1).val < 1 := idx2_lt1 i
  have hN : grid3.N = 100 := N_3
  have ht : (i 0).val / 1000 < cfg3.N := by show (i 0).val / 1000 < grid3.N; rw [hN]; omega
  obtain ⟨-, -, -, -, -, -, -, -, e0, e1⟩ := idx_facts ⟨(i 0).val / 1000, ht⟩
  refine ⟨⟨(i 0).val / 1000, ht⟩, flush3_5 _, ?_⟩
  rw [mem_blk5]
  intro a
  match a with
  | ⟨0, _⟩ =>
    show win3_5.index ⟨(i 0).val / 1000, ht⟩ (0 : Fin 2) * 1000 ≤ (i 0).val ∧ (i 0).val < win3_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win3_5.index ⟨(i 0).val / 1000, ht⟩ (1 : Fin 2) * 1 ≤ (i 1).val ∧ (i 1).val < win3_5.index ⟨(i 0).val / 1000, ht⟩ (1 : Fin 2) * 1 + 1
    rw [e1]; omega

/-- After all the points the second result's array is `outA`. -/
theorem final5 (c : Dev nD) :
    (dat3 V c).arrAt 5 cfg3.N = outA (V c main_v58) (V c main_arg5) (V c main_v59) (V c main_arg7) :=
  (dat3 V c).arrAt_eq_of_cover 5 (outA (V c main_v58) (V c main_arg5) (V c main_v59) (V c main_arg7))
    (fun t _ => flushed5_eq V c t) cover5

/-! ## The contraction of a row against the pooling column: which entries it reads -/

theorem dotL0 (i : S100000x1.Idx) (q : Cert.ReferenceIdeal.dot_S100000x384_S384x1_S100000x1_1_0_0_1_n_n.contr.Idx) :
    (Cert.ReferenceIdeal.dot_S100000x384_S384x1_S100000x1_1_0_0_1_n_n.lhsIdx i q 0).val = (i 0).val := by
  unfold DotDims.lhsIdx
  rw [dif_neg (show ¬(0 : Fin Cert.ReferenceIdeal.S100000x384.rank) ∈ Cert.ReferenceIdeal.dot_S100000x384_S384x1_S100000x1_1_0_0_1_n_n.lhsBatch by decide), dif_pos (show (0 : Fin Cert.ReferenceIdeal.S100000x384.rank) ∈ Cert.ReferenceIdeal.dot_S100000x384_S384x1_S100000x1_1_0_0_1_n_n.lhsNonContracting by decide)]
  rfl
theorem dotL1 (i : S100000x1.Idx) (q : Cert.ReferenceIdeal.dot_S100000x384_S384x1_S100000x1_1_0_0_1_n_n.contr.Idx) :
    (Cert.ReferenceIdeal.dot_S100000x384_S384x1_S100000x1_1_0_0_1_n_n.lhsIdx i q 1).val = (q ⟨0, by decide⟩).val :=
  Cert.ReferenceIdeal.dot_S100000x384_S384x1_S100000x1_1_0_0_1_n_n.lhsIdx_val_of_single rfl i q
theorem dotR0 (i : S100000x1.Idx) (q : Cert.ReferenceIdeal.dot_S100000x384_S384x1_S100000x1_1_0_0_1_n_n.contr.Idx) :
    (Cert.ReferenceIdeal.dot_S100000x384_S384x1_S100000x1_1_0_0_1_n_n.rhsIdx i q 0).val = (q ⟨0, by decide⟩).val :=
  Cert.ReferenceIdeal.dot_S100000x384_S384x1_S100000x1_1_0_0_1_n_n.rhsIdx_val_of_single rfl i q
theorem dotR1 (i : S100000x1.Idx) (q : Cert.ReferenceIdeal.dot_S100000x384_S384x1_S100000x1_1_0_0_1_n_n.contr.Idx) :
    (Cert.ReferenceIdeal.dot_S100000x384_S384x1_S100000x1_1_0_0_1_n_n.rhsIdx i q 1).val = (i 1).val := by
  unfold DotDims.rhsIdx
  rw [dif_neg (show ¬(1 : Fin Cert.ReferenceIdeal.S384x1.rank) ∈ Cert.ReferenceIdeal.dot_S100000x384_S384x1_S100000x1_1_0_0_1_n_n.rhsBatch by decide), dif_pos (show (1 : Fin Cert.ReferenceIdeal.S384x1.rank) ∈ Cert.ReferenceIdeal.dot_S100000x384_S384x1_S100000x1_1_0_0_1_n_n.rhsNonContracting by decide)]
  rfl

/-! ## The reference's two results, read at an index -/

/-- A bias vector laid along every row of the 100000 x 384 array, through its one-row form, reads the bias of the column. -/
theorem biasRows_apply (b : S384.Idx → Ideal .f32) (h1 : S384.BroadcastsInDim S1x384 ![1])
    (h2 : S1x384.BroadcastsInDim S100000x384 ![0, 1]) (i : S100000x384.Idx) :
    broadcastInDim S100000x384 ![0, 1] h2 (broadcastInDim S1x384 ![1] h1 b) i
      = b (ix1 (⟨(i 1).val, idx2_lt1 i⟩ : Fin 384)) := by
  refine (broadcastInDim_apply _ h2 _ i (ix2 (0 : Fin 1) (⟨(i 1).val, idx2_lt1 i⟩ : Fin 384)) fun a => ?_).trans
    (broadcastInDim_apply _ h1 b _ (ix1 (⟨(i 1).val, idx2_lt1 i⟩ : Fin 384)) fun a => ?_)
  · match a with
    | ⟨0, _⟩ => show 0 = if (1 : Nat) = 1 then 0 else (i 0).val; rw [if_pos rfl]
    | ⟨1, _⟩ => show (i 1).val = if (384 : Nat) = 1 then 0 else (i 1).val; rw [if_neg (by decide)]
  · match a with
    | ⟨0, _⟩ => show (i 1).val = if (384 : Nat) = 1 then 0 else (i 1).val; rw [if_neg (by decide)]

/-- The pooling bias laid down the 100000 x 1 column, through its 1 x 1 form, reads the one bias. -/
theorem biasCol_apply (bp : S1.Idx → Ideal .f32) (h1 : S1.BroadcastsInDim S1x1 ![1])
    (h2 : S1x1.BroadcastsInDim S100000x1 ![0, 1]) (i : S100000x1.Idx) :
    broadcastInDim S100000x1 ![0, 1] h2 (broadcastInDim S1x1 ![1] h1 bp) i = bp (ix1 (0 : Fin 1)) := by
  refine (broadcastInDim_apply _ h2 _ i (ix2 (0 : Fin 1) (0 : Fin 1)) fun a => ?_).trans
    (broadcastInDim_apply _ h1 bp _ (ix1 (0 : Fin 1)) fun a => ?_)
  · match a with
    | ⟨0, _⟩ => show 0 = if (1 : Nat) = 1 then 0 else (i 0).val; rw [if_pos rfl]
    | ⟨1, _⟩ => show 0 = if (1 : Nat) = 1 then 0 else (i 1).val; rw [if_pos rfl]
  · match a with
    | ⟨0, _⟩ => show 0 = if (1 : Nat) = 1 then 0 else _; rw [if_pos rfl]

/-- The reference's second-layer output is `outZ` of the aggregated rows and the bias. -/
theorem leakyBias_eq (agg : S100000x384.Idx → Ideal .f32) (b : S384.Idx → Ideal .f32) :
    Cert.ReferenceIdeal.RefValue.leakyBias agg b = outZ agg b := by
  funext i
  have e : Cert.ReferenceIdeal.RefValue.biased agg b i = agg i + b (ix1 (⟨(i 1).val, idx2_lt1 i⟩ : Fin 384)) := by
    unfold Cert.ReferenceIdeal.RefValue.biased
    rw [addf_apply]
    exact congrArg (agg i + ·) (biasRows_apply b _ _ i)
  unfold Cert.ReferenceIdeal.RefValue.leakyBias outZ
  show leaky (Cert.ReferenceIdeal.RefValue.biased agg b i) = _
  rw [e]

/-- One row of a 100000 x 384 array against a 384 x 1 column, as the sum over the 384 columns. -/
theorem rowDot_apply (z : FVec Ideal S100000x384 .f32) (wp : FVec Ideal S384x1 .f32) (i : S100000x1.Idx) :
    Host.dotGeneral (F := Ideal) Cert.ReferenceIdeal.dot_S100000x384_S384x1_S100000x1_1_0_0_1_n_n none z wp i
      = ∑ k : Fin 384, z (ix2 (⟨(i 0).val, idx2_lt0 i⟩ : Fin 100000) k) * wp (ix2 k (⟨(i 1).val, idx2_lt1 i⟩ : Fin 1)) := by
  simp only [Host.dotGeneral]
  rw [Ideal.dotGeneral_apply, ← Equiv.sum_comp (ValueIdx.contrEquiv1 Cert.ReferenceIdeal.dot_S100000x384_S384x1_S100000x1_1_0_0_1_n_n 384 rfl rfl).symm]
  refine Finset.sum_congr rfl fun k _ => ?_
  have hk := ValueIdx.contrEquiv1_symm_val Cert.ReferenceIdeal.dot_S100000x384_S384x1_S100000x1_1_0_0_1_n_n 384 rfl rfl k
  have el : Cert.ReferenceIdeal.dot_S100000x384_S384x1_S100000x1_1_0_0_1_n_n.lhsIdx i ((ValueIdx.contrEquiv1 Cert.ReferenceIdeal.dot_S100000x384_S384x1_S100000x1_1_0_0_1_n_n 384 rfl rfl).symm k)
      = ix2 (⟨(i 0).val, idx2_lt0 i⟩ : Fin 100000) k := funext fun a => Fin.ext (by
    match a with
    | ⟨0, _⟩ => exact dotL0 _ _
    | ⟨1, _⟩ => exact (dotL1 _ _).trans hk)
  have er : Cert.ReferenceIdeal.dot_S100000x384_S384x1_S100000x1_1_0_0_1_n_n.rhsIdx i ((ValueIdx.contrEquiv1 Cert.ReferenceIdeal.dot_S100000x384_S384x1_S100000x1_1_0_0_1_n_n 384 rfl rfl).symm k)
      = ix2 k (⟨(i 1).val, idx2_lt1 i⟩ : Fin 1) := funext fun a => Fin.ext (by
    match a with
    | ⟨0, _⟩ => exact (dotR0 _ _).trans hk
    | ⟨1, _⟩ => exact dotR1 _ _)
  rw [el, er]

/-- The reference's pooled score at row r: the row against the pooling column, plus the pooling bias. -/
theorem pooled_apply (z : S100000x384.Idx → Ideal .f32) (wp : S384x1.Idx → Ideal .f32) (bp : S1.Idx → Ideal .f32) (i : S100000x1.Idx) :
    Cert.ReferenceIdeal.RefValue.pooled z wp bp i
      = (∑ k : Fin 384, z (ix2 (⟨(i 0).val, idx2_lt0 i⟩ : Fin 100000) k) * wp (ix2 k (0 : Fin 1))) + bp (ix1 (0 : Fin 1)) := by
  unfold Cert.ReferenceIdeal.RefValue.pooled
  rw [addf_apply]
  refine congrArg₂ (· + ·) ((rowDot_apply z wp i).trans ?_) (biasCol_apply bp _ _ i)
  have e1 : (⟨(i 1).val, idx2_lt1 i⟩ : Fin 1) = 0 := Subsingleton.elim _ _
  rw [e1]

/-! ## The two arrays after the region -/

/-- After the fourth pallas_call its first output array holds the leaky rectifier of the aggregated rows plus bias. -/
theorem region3_z (c : Dev nD) :
    (dat3 (F := Ideal) V c).arrAt 4 cfg3.N
      = Cert.ReferenceIdeal.RefValue.leakyBias (V c main_v58) (V c main_arg5) :=
  (final4 V c).trans (leakyBias_eq _ _).symm

/-- and its second output array the pooled score, when the row it read is the pooling column transposed. -/
theorem region3_a (c : Dev nD) (wp : (⟨S384x1, .f32⟩ : BufTy).Contents (Elt Ideal))
    (hwp : V c main_v59 = transpose S1x384 [1, 0] wp transposes_S384x1_S1x384_1_0) :
    (dat3 (F := Ideal) V c).arrAt 5 cfg3.N
      = Cert.ReferenceIdeal.RefValue.pooled (Cert.ReferenceIdeal.RefValue.leakyBias (V c main_v58) (V c main_arg5)) wp (V c main_arg7) := by
  rw [final5 V c, hwp, leakyBias_eq]
  funext i
  rw [pooled_apply]
  unfold outA
  refine congrArg (· + _) (Finset.sum_congr rfl fun k _ => ?_)
  exact congrArg (_ * ·) (transpose_ix2_apply wp transposes_S384x1_S1x384_1_0 (0 : Fin 1) k)

end Cert.KernelIdeal.RegionValue

end
-- ==== Proof.HostChain.lean ====
/- What the host operations between the kernel regions leave in the buffers each region reads: the arguments as
   launched, the edge lists and weights as the reference's stages of the edge array, and each neighbourhood sum as
   `aggregate` of the preceding region's output array. -/
import proofs.«108951_j53120155517255_1_alg».proof.Proof.Gen.KernelIdeal.Frame
import proofs.«108951_j53120155517255_1_alg».proof.Proof.RefSide
import Idealize.ShloMosaic.Lib.StableHlo.Run
set_option maxRecDepth 16384

noncomputable section

namespace Cert.KernelIdeal.HostValue

open Cert.KernelIdeal Cert.KernelIdeal.Gen Idealize.ShloMosaic Idealize.ShloMosaic.TcCoe Idealize.SL.Sem
open Idealize.ShloMosaic.Pipeline (Dat Cfg Window)

/-! ## Buffers a stretch of host operations does not write -/

/-- No operation of a literal list of host operations writes the buffer: every operation writes its one result
    buffer, and the buffer is none of them. -/
macro "host_unwritten" : tactic =>
  `(tactic| (refine List.forall_iff_forall_mem.mp ?_
             simp only [hostOps0, hostOps0_1, hostOps0_2, hostOps1, hostOps3, List.Forall, StableHlo.nullary_writes,
               StableHlo.unary_writes, StableHlo.binary_writes, StableHlo.ternary_writes, StableHlo.reshape_writes,
               Finset.mem_singleton]
             repeat' apply And.intro
             all_goals exact StableHlo.devRef_ne_of_ne (by decide)))

/-- The fold through such a list leaves the buffer as it was. -/
macro "host_skip" : tactic =>
  `(tactic| (refine StableHlo.after_of_forall_not_mem _ _ ?_; host_unwritten))

/-- What a simp pass over the operations' results leaves inside a concatenate's operand list, one rewrite at a
    time. -/
macro "results_rw" : tactic =>
  `(tactic| (repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))))

/-! ## The host stretches as functions of the contents they start from

Both programs apply the same operations in the same order; the two sides of each equation below differ only in
which program's shape records and side conditions they name, so each closes by unfolding the reference's stages
over VARIABLES for the arrays that go in. -/

section Chains

variable {F : FTy → Type} [FloatOps F]

/-- The source list (the edge array's first row, then every node once) after the first stretch. -/
theorem src_after (V : Valuation τ sig (Elt F)) :
    StableHlo.after hostOps0 V (Proc.devRef .tc main_v5)
      = Cert.ReferenceIdeal.ReadP.val_main_v5 (F := F) (V (Proc.devRef .tc main_arg1)) := by
  after_results
  generalize V (Proc.devRef .tc main_arg1) = x1
  rfl

/-- The target list (the edge array's second row, then every node once) after the first stretch. -/
theorem dst_after (V : Valuation τ sig (Elt F)) :
    StableHlo.after hostOps0 V (Proc.devRef .tc main_v6)
      = Cert.ReferenceIdeal.ReadP.val_main_v6 (F := F) (V (Proc.devRef .tc main_arg1)) := by
  after_results
  generalize V (Proc.devRef .tc main_arg1) = x1
  rfl

set_option maxHeartbeats 2000000 in
/-- The edge weights (the two endpoints' inverse square-root degrees multiplied) after the three stretches that
    precede the first region. -/
theorem norm_after (V : Valuation τ sig (Elt F)) :
    StableHlo.after hostOps0_2 (StableHlo.after hostOps0_1 (StableHlo.after hostOps0 V)) (Proc.devRef .tc main_v29)
      = Cert.ReferenceIdeal.ReadP.val_main_v29 (F := F) (V (Proc.devRef .tc main_arg1)) := by
  after_results_simp
  results_rw
  generalize V (Proc.devRef .tc main_arg1) = x1
  rfl

end Chains

set_option maxHeartbeats 2000000 in
/-- The stretch before the second region: the neighbourhood sum of whatever array `main_v30` holds. -/
theorem agg1_after (V : Valuation τ sig (Elt Ideal)) :
    StableHlo.after hostOps1 V (Proc.devRef .tc main_v43)
      = Cert.ReferenceIdeal.RefValue.aggregate (V (Proc.devRef .tc main_v29)) (V (Proc.devRef .tc main_v5))
          (V (Proc.devRef .tc main_v6)) (V (Proc.devRef .tc main_v30)) := by
  after_results_simp
  generalize V (Proc.devRef .tc main_v29) = nrm
  generalize V (Proc.devRef .tc main_v5) = srcI
  generalize V (Proc.devRef .tc main_v6) = dstI
  generalize V (Proc.devRef .tc main_v30) = h
  rfl

set_option maxHeartbeats 2000000 in
/-- The stretch before the fourth region: the neighbourhood sum of whatever array `main_v45` holds. -/
theorem agg2_after (V : Valuation τ sig (Elt Ideal)) :
    StableHlo.after hostOps3 V (Proc.devRef .tc main_v58)
      = Cert.ReferenceIdeal.RefValue.aggregate (V (Proc.devRef .tc main_v29)) (V (Proc.devRef .tc main_v5))
          (V (Proc.devRef .tc main_v6)) (V (Proc.devRef .tc main_v45)) := by
  after_results_simp
  generalize V (Proc.devRef .tc main_v29) = nrm
  generalize V (Proc.devRef .tc main_v5) = srcI
  generalize V (Proc.devRef .tc main_v6) = dstI
  generalize V (Proc.devRef .tc main_v45) = h
  rfl

/-- The same stretch transposes the pooling column. -/
theorem wp_after (V : Valuation τ sig (Elt Ideal)) :
    StableHlo.after hostOps3 V (Proc.devRef .tc main_v59)
      = transpose S1x384 [1, 0] (V (Proc.devRef .tc main_arg6)) transposes_S384x1_S1x384_1_0 := by
  after_results

variable (m : (ℓ : Loc nD τ sig) → Buf (Elt Ideal) ℓ) (ρ : Dev nD → PrngReg)

/-! ## Walking a buffer back through the fold -/

/-- A buffer no host operation before the first region writes holds its launch contents there. -/
theorem W3_launch (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- A buffer that is no window of the first region and that the stretch after it does not write is, at the second
    region's entry, what it was at the first's. -/
theorem W5_eq_W3 (c : Dev nD) (b : Ref sig .tc) (n0 : ∀ w, Pipeline.arrRef spec0 w ≠ b)
    (h : ∀ op ∈ (hostOps1 : List (HloOp τ sig (Elt Ideal))), Proc.devRef .tc b ∉ op.writes) :
    W5 m ρ c (Proc.devRef .tc b) = W3 m ρ c (Proc.devRef .tc b) :=
  calc W5 m ρ c (Proc.devRef .tc b)
    _ = W4 m ρ c (Proc.devRef .tc b) := StableHlo.after_of_forall_not_mem _ _ h
    _ = W3 m ρ c (Proc.devRef .tc b) := W4_of_ne m ρ c b n0

/-- A buffer that is no window of the first three regions and that the stretch between them does not write is, at
    the third region's exit, what it was at the first's entry. -/
theorem W7_eq_W3 (c : Dev nD) (b : Ref sig .tc) (n0 : ∀ w, Pipeline.arrRef spec0 w ≠ b)
    (n1 : ∀ w, Pipeline.arrRef spec1 w ≠ b) (n2 : ∀ w, Pipeline.arrRef spec2 w ≠ b)
    (h : ∀ op ∈ (hostOps1 : List (HloOp τ sig (Elt Ideal))), Proc.devRef .tc b ∉ op.writes) :
    W7 m ρ c (Proc.devRef .tc b) = W3 m ρ c (Proc.devRef .tc b) :=
  calc W7 m ρ c (Proc.devRef .tc b)
    _ = W6 m ρ c (Proc.devRef .tc b) := W7_of_ne m ρ c b n2
    _ = W5 m ρ c (Proc.devRef .tc b) := W6_of_ne m ρ c b n1
    _ = W3 m ρ c (Proc.devRef .tc b) := W5_eq_W3 m ρ c b n0 h

/-! ## The arguments, at the entries where a region reads them -/

theorem W3_arg0 (c : Dev nD) : W3 m ρ c (Proc.devRef .tc main_arg0) = m ((c : Thread nD τ).loc main_arg0) :=
  W3_launch m ρ c main_arg0 (by host_unwritten) (by host_unwritten) (by host_unwritten)
theorem W3_arg1 (c : Dev nD) : W3 m ρ c (Proc.devRef .tc main_arg1) = m ((c : Thread nD τ).loc main_arg1) :=
  W3_launch m ρ c main_arg1 (by host_unwritten) (by host_unwritten) (by host_unwritten)
theorem W3_arg2 (c : Dev nD) : W3 m ρ c (Proc.devRef .tc main_arg2) = m ((c : Thread nD τ).loc main_arg2) :=
  W3_launch m ρ c main_arg2 (by host_unwritten) (by host_unwritten) (by host_unwritten)
theorem W3_arg3 (c : Dev nD) : W3 m ρ c (Proc.devRef .tc main_arg3) = m ((c : Thread nD τ).loc main_arg3) :=
  W3_launch m ρ c main_arg3 (by host_unwritten) (by host_unwritten) (by host_unwritten)
theorem W3_arg4 (c : Dev nD) : W3 m ρ c (Proc.devRef .tc main_arg4) = m ((c : Thread nD τ).loc main_arg4) :=
  W3_launch m ρ c main_arg4 (by host_unwritten) (by host_unwritten) (by host_unwritten)
theorem W3_arg5 (c : Dev nD) : W3 m ρ c (Proc.devRef .tc main_arg5) = m ((c : Thread nD τ).loc main_arg5) :=
  W3_launch m ρ c main_arg5 (by host_unwritten) (by host_unwritten) (by host_unwritten)
theorem W3_arg6 (c : Dev nD) : W3 m ρ c (Proc.devRef .tc main_arg6) = m ((c : Thread nD τ).loc main_arg6) :=
  W3_launch m ρ c main_arg6 (by host_unwritten) (by host_unwritten) (by host_unwritten)
theorem W3_arg7 (c : Dev nD) : W3 m ρ c (Proc.devRef .tc main_arg7) = m ((c : Thread nD τ).loc main_arg7) :=
  W3_launch m ρ c main_arg7 (by host_unwritten) (by host_unwritten) (by host_unwritten)

theorem V3_arg0 (c : Dev nD) : V3 m ρ c main_arg0 = m ((c : Thread nD τ).loc main_arg0) := W3_arg0 m ρ c
theorem V3_arg2 (c : Dev nD) : V3 m ρ c main_arg2 = m ((c : Thread nD τ).loc main_arg2) := W3_arg2 m ρ c

/-- The first region reads the node features through an input window, which the pipeline leaves as entered. -/
theorem V5_arg0 (c : Dev nD) : V5 m ρ c main_arg0 = m ((c : Thread nD τ).loc main_arg0) :=
  calc V5 m ρ c main_arg0
    _ = W4 m ρ c (Proc.devRef .tc main_arg0) := by host_skip
    _ = W3 m ρ c (Proc.devRef .tc main_arg0) :=
        (W4_arr m ρ c 0).trans (((dat0 (V3 m ρ) c).arrAt_in 0 rfl _).trans (A_eq0 (V3 m ρ) c 0))
    _ = m ((c : Thread nD τ).loc main_arg0) := W3_arg0 m ρ c

theorem V5_arg3 (c : Dev nD) : V5 m ρ c main_arg3 = m ((c : Thread nD τ).loc main_arg3) :=
  (W5_eq_W3 m ρ c main_arg3 (by decide) (by host_unwritten)).trans (W3_arg3 m ρ c)

theorem V6_arg4 (c : Dev nD) : V6 m ρ c main_arg4 = m ((c : Thread nD τ).loc main_arg4) :=
  calc V6 m ρ c main_arg4
    _ = W5 m ρ c (Proc.devRef .tc main_arg4) := W6_of_ne m ρ c main_arg4 (by decide)
    _ = W3 m ρ c (Proc.devRef .tc main_arg4) := W5_eq_W3 m ρ c main_arg4 (by decide) (by host_unwritten)
    _ = m ((c : Thread nD τ).loc main_arg4) := W3_arg4 m ρ c

theorem V8_arg5 (c : Dev nD) : V8 m ρ c main_arg5 = m ((c : Thread nD τ).loc main_arg5) :=
  calc V8 m ρ c main_arg5
    _ = W7 m ρ c (Proc.devRef .tc main_arg5) := by host_skip
    _ = W3 m ρ c (Proc.devRef .tc main_arg5) :=
        W7_eq_W3 m ρ c main_arg5 (by decide) (by decide) (by decide) (by host_unwritten)
    _ = m ((c : Thread nD τ).loc main_arg5) := W3_arg5 m ρ c

theorem V8_arg7 (c : Dev nD) : V8 m ρ c main_arg7 = m ((c : Thread nD τ).loc main_arg7) :=
  calc V8 m ρ c main_arg7
    _ = W7 m ρ c (Proc.devRef .tc main_arg7) := by host_skip
    _ = W3 m ρ c (Proc.devRef .tc main_arg7) :=
        W7_eq_W3 m ρ c main_arg7 (by decide) (by decide) (by decide) (by host_unwritten)
    _ = m ((c : Thread nD τ).loc main_arg7) := W3_arg7 m ρ c

/-! ## The edge lists and weights: written before the first region, untouched afterwards -/

theorem src_at_W3 (c : Dev nD) : W3 m ρ c (Proc.devRef .tc main_v5)
    = Cert.ReferenceIdeal.ReadP.val_main_v5 (F := Ideal) (m ((c : Thread nD τ).loc main_arg1)) :=
  calc W3 m ρ c (Proc.devRef .tc main_v5)
    _ = W2 m ρ c (Proc.devRef .tc main_v5) := by host_skip
    _ = W1 m ρ c (Proc.devRef .tc main_v5) := by host_skip
    _ = _ := src_after (W0 m ρ c)

theorem dst_at_W3 (c : Dev nD) : W3 m ρ c (Proc.devRef .tc main_v6)
    = Cert.ReferenceIdeal.ReadP.val_main_v6 (F := Ideal) (m ((c : Thread nD τ).loc main_arg1)) :=
  calc W3 m ρ c (Proc.devRef .tc main_v6)
    _ = W2 m ρ c (Proc.devRef .tc main_v6) := by host_skip
    _ = W1 m ρ c (Proc.devRef .tc main_v6) := by host_skip
    _ = _ := dst_after (W0 m ρ c)

theorem norm_at_W3 (c : Dev nD) : W3 m ρ c (Proc.devRef .tc main_v29)
    = Cert.ReferenceIdeal.ReadP.val_main_v29 (F := Ideal) (m ((c : Thread nD τ).loc main_arg1)) :=
  norm_after (W0 m ρ c)

theorem src_at_W4 (c : Dev nD) : W4 m ρ c (Proc.devRef .tc main_v5)
    = Cert.ReferenceIdeal.ReadP.val_main_v5 (F := Ideal) (m ((c : Thread nD τ).loc main_arg1)) :=
  (W4_of_ne m ρ c main_v5 (by decide)).trans (src_at_W3 m ρ c)
theorem dst_at_W4 (c : Dev nD) : W4 m ρ c (Proc.devRef .tc main_v6)
    = Cert.ReferenceIdeal.ReadP.val_main_v6 (F := Ideal) (m ((c : Thread nD τ).loc main_arg1)) :=
  (W4_of_ne m ρ c main_v6 (by decide)).trans (dst_at_W3 m ρ c)
theorem norm_at_W4 (c : Dev nD) : W4 m ρ c (Proc.devRef .tc main_v29)
    = Cert.ReferenceIdeal.ReadP.val_main_v29 (F := Ideal) (m ((c : Thread nD τ).loc main_arg1)) :=
  (W4_of_ne m ρ c main_v29 (by decide)).trans (norm_at_W3 m ρ c)

theorem src_at_W7 (c : Dev nD) : W7 m ρ c (Proc.devRef .tc main_v5)
    = Cert.ReferenceIdeal.ReadP.val_main_v5 (F := Ideal) (m ((c : Thread nD τ).loc main_arg1)) :=
  (W7_eq_W3 m ρ c main_v5 (by decide) (by decide) (by decide) (by host_unwritten)).trans (src_at_W3 m ρ c)
theorem dst_at_W7 (c : Dev nD) : W7 m ρ c (Proc.devRef .tc main_v6)
    = Cert.ReferenceIdeal.ReadP.val_main_v6 (F := Ideal) (m ((c : Thread nD τ).loc main_arg1)) :=
  (W7_eq_W3 m ρ c main_v6 (by decide) (by decide) (by decide) (by host_unwritten)).trans (dst_at_W3 m ρ c)
theorem norm_at_W7 (c : Dev nD) : W7 m ρ c (Proc.devRef .tc main_v29)
    = Cert.ReferenceIdeal.ReadP.val_main_v29 (F := Ideal) (m ((c : Thread nD τ).loc main_arg1)) :=
  (W7_eq_W3 m ρ c main_v29 (by decide) (by decide) (by decide) (by host_unwritten)).trans (norm_at_W3 m ρ c)

/-! ## The neighbourhood sums and the transposed pooling column -/

/-- The second region's aggregated input is the neighbourhood sum of the first region's output array. -/
theorem V5_agg (c : Dev nD) :
    V5 m ρ c main_v43 = Cert.ReferenceIdeal.RefValue.aggregate (Cert.ReferenceIdeal.ReadP.val_main_v29 (F := Ideal) (m ((c : Thread nD τ).loc main_arg1)))
      (Cert.ReferenceIdeal.ReadP.val_main_v5 (F := Ideal) (m ((c : Thread nD τ).loc main_arg1))) (Cert.ReferenceIdeal.ReadP.val_main_v6 (F := Ideal) (m ((c : Thread nD τ).loc main_arg1)))
      (V4 m ρ c main_v30) := by
  refine (agg1_after (W4 m ρ c)).trans ?_
  rw [norm_at_W4 m ρ c, src_at_W4 m ρ c, dst_at_W4 m ρ c]

/-- The fourth region's aggregated input is the neighbourhood sum of the third region's output array. -/
theorem V8_agg (c : Dev nD) :
    V8 m ρ c main_v58 = Cert.ReferenceIdeal.RefValue.aggregate (Cert.ReferenceIdeal.ReadP.val_main_v29 (F := Ideal) (m ((c : Thread nD τ).loc main_arg1)))
      (Cert.ReferenceIdeal.ReadP.val_main_v5 (F := Ideal) (m ((c : Thread nD τ).loc main_arg1))) (Cert.ReferenceIdeal.ReadP.val_main_v6 (F := Ideal) (m ((c : Thread nD τ).loc main_arg1)))
      (V7 m ρ c main_v45) := by
  refine (agg2_after (W7 m ρ c)).trans ?_
  rw [norm_at_W7 m ρ c, src_at_W7 m ρ c, dst_at_W7 m ρ c]

/-- The row the fourth region reads is the pooling column transposed. -/
theorem V8_wp (c : Dev nD) :
    V8 m ρ c main_v59 = transpose S1x384 [1, 0] (m ((c : Thread nD τ).loc main_arg6)) transposes_S384x1_S1x384_1_0 := by
  refine (wp_after (W7 m ρ c)).trans ?_
  rw [W7_eq_W3 m ρ c main_arg6 (by decide) (by decide) (by decide) (by host_unwritten), W3_arg6 m ρ c]

end Cert.KernelIdeal.HostValue

end
-- ==== Proof.KernelValue.lean ====
/- The kernel's two results as the reference's stages of the arguments. Walking @main forward: the first product is the
   reference's first product; its neighbourhood sum the reference's; the first layer's output, the second product, the
   second neighbourhood sum and the two outputs likewise, each region's array read through the region that wrote it and
   each host stretch as the function of the arrays going in. -/
import proofs.«108951_j53120155517255_1_alg».proof.Proof.Gen.KernelIdeal.Frame
import proofs.«108951_j53120155517255_1_alg».proof.Proof.RefSide
import proofs.«108951_j53120155517255_1_alg».proof.Proof.Region0
import proofs.«108951_j53120155517255_1_alg».proof.Proof.Region1
import proofs.«108951_j53120155517255_1_alg».proof.Proof.Region2
import proofs.«108951_j53120155517255_1_alg».proof.Proof.Region3
import proofs.«108951_j53120155517255_1_alg».proof.Proof.HostChain
set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.Pipeline (Dat Cfg Window)
open Cert.KernelIdeal.RegionValue Cert.KernelIdeal.HostValue

variable (m : (ℓ : Loc nD τ sig) → Buf (Elt Ideal) ℓ) (ρ : Dev nD → PrngReg)

/-- The first region leaves the reference's first product. -/
theorem firstProduct (c : Dev nD) :
    V4 m ρ c main_v30 = Cert.ReferenceIdeal.ReadP.val_main_v30 (F := Ideal) (m ((c : Thread nD τ).loc main_arg0)) (m ((c : Thread nD τ).loc main_arg2)) :=
  (W4_arr m ρ c 2).trans ((region0 (V3 m ρ) c).trans (by rw [V3_arg0, V3_arg2]))

/-- Its neighbourhood sum is the reference's. -/
theorem firstSum (c : Dev nD) :
    V5 m ρ c main_v43 = Cert.ReferenceIdeal.ReadP.val_main_v43 (F := Ideal) (m ((c : Thread nD τ).loc main_arg0)) (m ((c : Thread nD τ).loc main_arg1)) (m ((c : Thread nD τ).loc main_arg2)) :=
  (V5_agg m ρ c).trans (by rw [firstProduct]; exact (Cert.ReferenceIdeal.RefValue.agg1_eq _ _ _).symm)

/-- The second region leaves the reference's first layer output. -/
theorem firstLayer (c : Dev nD) :
    V6 m ρ c main_v44 = Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) :=
  (W6_arr m ρ c 3).trans ((region1 (V5 m ρ) c).trans (by rw [V5_arg0, firstSum, V5_arg3]; exact (Cert.ReferenceIdeal.RefValue.y_eq _ _ _ _).symm))

/-- The third region leaves the reference's second product. -/
theorem secondProduct (c : Dev nD) :
    V7 m ρ c main_v45 = Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans ((region2 (V6 m ρ) c).trans (by rw [firstLayer, V6_arg4]; exact (Cert.ReferenceIdeal.RefValue.h2_eq _ _ _ _ _).symm))

/-- Its neighbourhood sum is the reference's. -/
theorem secondSum (c : Dev nD) :
    V8 m ρ c main_v58 = Cert.ReferenceIdeal.ReadP.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (V8_agg m ρ c).trans (by rw [secondProduct]; exact (Cert.ReferenceIdeal.RefValue.agg2_eq _ _ _ _ _).symm)

/-- The fourth region's first output is the reference's second layer output. -/
theorem result0 (c : Dev nD) :
    W9 m ρ c (Proc.devRef .tc main_v60_0) = Cert.ReferenceIdeal.ReadP.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 4).trans ((region3_z (V8 m ρ) c).trans (by rw [secondSum, V8_arg5]; exact (Cert.ReferenceIdeal.RefValue.z_eq _ _ _ _ _ _).symm))

/-- and its second output the reference's pooled score. -/
theorem result1 (c : Dev nD) :
    W9 m ρ c (Proc.devRef .tc main_v60_1) = Cert.ReferenceIdeal.ReadP.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W9_arr m ρ c 5).trans ((region3_a (V8 m ρ) c _ (V8_wp m ρ c)).trans (by
    rw [secondSum, V8_arg5, V8_arg7, ← Cert.ReferenceIdeal.RefValue.z_eq]; exact (Cert.ReferenceIdeal.RefValue.a_eq _ _ _ _ _ _ _ _).symm))

end Cert.KernelIdeal.KernelValue

end
-- ==== Proof.lean ====
/-
  The certificate of a two-layer graph convolution with a pooled score, written as four pallas_calls among host
  gathers and scatter-adds, against the same network written in plain array operations.

  Over the extended reals both programs compute, from the node features x, the edge array and the weights,
    h1 = x·W1,  y = leaky([x | Â h1 + b1]),  h2 = y·W2,  z = leaky(Â h2 + b2),  a = z·Wp + bp,
  where Â is the degree-normalised adjacency with self-loops, applied as a gather of source rows, a scaling by the
  edge weight and a scatter-add into target rows, and leaky(v) is v where v ≥ 0 and the float nearest 0.01 times v
  elsewhere. The kernel computes the two products and the pointwise stages in row blocks of 1000, rounding the matmul
  operands to bfloat16 (the identity on the extended reals), and writes the pooled score as a lane sum of z against
  the transposed pooling column; the reference computes whole-array products. Sums of extended reals commute and
  associate, and no other law is needed: the precondition is never opened.

  The frames of the two kernel programs are the generated ones; the reference's frame is its run with the
  results dropped; the idealization rewrote nothing. For the value claim both runs end at the reference's own stage
  terms of the arguments (Proof/KernelValue.lean for the kernel, the reference's run read stage by stage for the reference).
-/
import proofs.«108951_j53120155517255_1_alg».proof.Defs
import proofs.«108951_j53120155517255_1_alg».proof.Proof.Gen.Kernel
import proofs.«108951_j53120155517255_1_alg».proof.Proof.Gen.Kernel.Frame
import proofs.«108951_j53120155517255_1_alg».proof.Proof.Gen.KernelIdeal
import proofs.«108951_j53120155517255_1_alg».proof.Proof.Gen.KernelIdeal.Frame
import proofs.«108951_j53120155517255_1_alg».proof.Proof.Gen.ReferenceIdeal
import proofs.«108951_j53120155517255_1_alg».proof.Proof.Gen.Pre_finite_inputs
import proofs.«108951_j53120155517255_1_alg».proof.Proof.RefRead
import proofs.«108951_j53120155517255_1_alg».proof.Proof.RefRunHand
import proofs.«108951_j53120155517255_1_alg».proof.Proof.KernelRun
import proofs.«108951_j53120155517255_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.HandRun.run m ρ)

/-- From memories that agree on the arguments both programs end with the reference's second-layer output and pooled
    score, as stages of the kernel's arguments. -/
theorem algebraic : Cert.algebraic_KernelIdeal_ReferenceIdeal := by
  intro m ρ m' ρ' _ hagree
  refine ⟨fun c => Cert.ReferenceIdeal.ReadP.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KernelValue.result0 m ρ c),
        (h c).2.1.trans (Cert.KernelIdeal.KernelValue.result1 m ρ c), (h c).2.2⟩)
      (Cert.KernelIdeal.RunValue.run_results (F := Ideal) m ρ)
  · refine (θ_run Cert.ReferenceIdeal.defs _ _).mono (fun _ h c => ⟨(h c).1.trans ?_, (h c).2.1.trans ?_, (h c).2.2⟩)
      (Cert.ReferenceIdeal.HandRun.run m' ρ')
    · obtain ⟨e0, e1, e2, e3, e4, e5, e6, e7⟩ := hagree c
      rw [e0, e1, e2, e3, e4, e5]
    · obtain ⟨e0, e1, e2, e3, e4, e5, e6, e7⟩ := hagree c
      rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
